-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32 : Shape := ⟨1, ![32]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) (main_arg1 : FVec F S32x1024x1024 .f32) (main_arg2 : IVec S32 32) (main_arg3 : IVec S32 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  main_v8
-- ==== Kernel.lean ====
abbrev S32x1024x1024 : Shape := ⟨3, ![32, 1024, 1024]⟩
abbrev S32 : Shape := ⟨1, ![32]⟩
abbrev S1x1024x1024 : Shape := ⟨3, ![1, 1024, 1024]⟩
abbrev S1x1024x256 : Shape := ⟨3, ![1, 1024, 256]⟩
abbrev S1024x1024 : Shape := ⟨2, ![1024, 1024]⟩
abbrev S1 : Shape := ⟨1, ![1]⟩
abbrev S1024 : Shape := ⟨1, ![1024]⟩
abbrev S1x1024 : Shape := ⟨2, ![1, 1024]⟩
abbrev S1024x1 : Shape := ⟨2, ![1024, 1]⟩
abbrev S1024x256 : Shape := ⟨2, ![1024, 256]⟩

abbrev nBuf : Space → Nat
  | .hbm => 5
  | .vmem => 12
  | .smem => 2
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S32x1024x1024, .f32⟩
  | .hbm, ⟨4, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S1024x1024, .bf16⟩
  | .local _ .vmem, ⟨11, _⟩ => ⟨S1024x1024, .bf16⟩
  | .local _ .smem, ⟨0, _⟩ => ⟨S32, .i32⟩
  | .local _ .smem, ⟨1, _⟩ => ⟨S32, .i32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c256_i32 : BitVec 32 := 256#32
  let v9 : BitVec 32 := Scalar.muli arg1 c256_i32
  v9
def k0_off2 (i : grid0.Coords) : Fin 3 → Nat :=
  let c0_4 : Index := 0#32
  let c0_5 : Index := 0#32
  let arg1 : BitVec 32 := BitVec.ofNat 32 (i 1).val
  let c256_i32 : BitVec 32 := 256#32
  let v9 : BitVec 32 := Scalar.muli arg1 c256_i32
  let v10 : BitVec 32 := v9
  let v11 : Index := Scalar.indexCast v10
  ![0, 0, v11.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  iota_S1024x1024_d0_w32 : S1024x1024.Iotas .tc 32 [0]
  reduces_S1024x1024_S1024 : S1024x1024.Reduces [0] S1024
  shapeCasts_S1024_S1x1024 : S1024.ShapeCasts S1x1024
  broadcasts_S1x1024_S1024x1024 : S1x1024.Broadcasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  iota_S1024x1024_d1_w32 : S1024x1024.Iotas .tc 32 [1]
  reduces_S1024x1024_S1024_2 : S1024x1024.Reduces [1] S1024
  shapeCasts_S1024_S1024x1 : S1024.ShapeCasts S1024x1
  broadcasts_S1024x1_S1024x1024 : S1024x1.Broadcasts S1024x1024
  h_S1x1024x256 : 0 < S1x1024x256.numel
  shapeCasts_S1x1024x256_S1024x256 : S1x1024x256.ShapeCasts S1024x256
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  dot_S1024x1024_S1024x1024_S1024x1024_1_1_0_0_n_n_wf : DotDims.WF S1024x1024 S1024x1024 S1024x1024 [1] [1] [0] [0] [] []
  dot_S1024x1024_S1024x256_S1024x256_0_0_1_1_n_n_wf : DotDims.WF S1024x1024 S1024x256 S1024x256 [0] [0] [1] [1] [] []
  dot_S1024x1024_S1024x256_S1024x256_1_0_0_1_n_n_wf : DotDims.WF S1024x1024 S1024x256 S1024x256 [1] [0] [0] [1] [] []
  hrank0 : 0 < grid0.rank
  k0_off1_inb : ∀ i : grid0.Coords, ∀ a, (k0_off1 i) a + S1.size a ≤ S32.size a
  k0_mult1_dvd : ∀ i : grid0.Coords, 256 ∣ (k0_mult1 i).toNat
  k0_off2_inb : ∀ i : grid0.Coords, ∀ a, (k0_off2 i) a + S1x1024x256.size a ≤ S1x1024x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x1024.size a
  hwx0_2 : ∀ i : grid0.Coords, EltTy.bits .f32 = 32 ∨ (Rect.block (s := S32x1024x1024) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S32x1024x1024.size a
  hwx0_3 : ∀ i : grid0.Coords, EltTy.bits .f32 = 32 ∨ (Rect.block (s := S32x1024x1024) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S32x1024x1024.size a
  hwx0_4 : ∀ i : grid0.Coords, EltTy.bits .f32 = 32 ∨ (Rect.block (s := S32x1024x1024) S1x1024x256.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v0_0) S1x1024x256.size reads0_2 true false 2 stage0_2 sem0_2 nbuf0_2 hstage0_2

abbrev spec0_3 : Pipeline.WinSpec sig grid0.rank :=
  Pipeline.WinSpec.ofSpec (Memref.whole main_v0_1) S1x1024x256.size reads0_3 true false 2 stage0_3 sem0_3 nbuf0_3 hstage0_3

abbrev spec0_4 : Pipeline.WinSpec sig grid0.rank :=
  Pipeline.WinSpec.ofSpec (Memref.whole main_v0_2) S1x1024x256.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S32x1024x1024 : Shape := ⟨3, ![32, 1024, 1024]⟩
abbrev S32 : Shape := ⟨1, ![32]⟩
abbrev S1024 : Shape := ⟨1, ![1024]⟩
abbrev S1x1024x1 : Shape := ⟨3, ![1, 1024, 1]⟩
abbrev S32x1x1 : Shape := ⟨3, ![32, 1, 1]⟩
abbrev S32x1024x1 : Shape := ⟨3, ![32, 1024, 1]⟩
abbrev S_ : Shape := ⟨0, ![]⟩
abbrev S32x1024 : Shape := ⟨2, ![32, 1024]⟩
abbrev S32x1x1024 : Shape := ⟨3, ![32, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32, .i32⟩
  | .hbm, ⟨3, _⟩ => ⟨S32, .i32⟩
  | .hbm, ⟨4, _⟩ => ⟨S32x1024x1024, .f32⟩
  | .hbm, ⟨5, _⟩ => ⟨S1024, .i32⟩
  | .hbm, ⟨6, _⟩ => ⟨S1x1024x1, .i32⟩
  | .hbm, ⟨7, _⟩ => ⟨S32x1x1, .i32⟩
  | .hbm, ⟨8, _⟩ => ⟨S32x1024x1, .i32⟩
  | .hbm, ⟨9, _⟩ => ⟨S32x1024x1, .i32⟩
  | .hbm, ⟨10, _⟩ => ⟨S32x1024x1, .i1⟩
  | .hbm, ⟨11, _⟩ => ⟨S_, .f32⟩
  | .hbm, ⟨12, _⟩ => ⟨S_, .f32⟩
  | .hbm, ⟨13, _⟩ => ⟨S32x1024x1024, .i1⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024, .f32⟩
  | .hbm, ⟨18, _⟩ => ⟨S_, .f32⟩
  | .hbm, ⟨19, _⟩ => ⟨S32x1024, .f32⟩
  | .hbm, ⟨20, _⟩ => ⟨S32x1024, .f32⟩
  | .hbm, ⟨21, _⟩ => ⟨S32x1x1024, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S32x1x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S1024, .i32⟩
  | .hbm, ⟨32, _⟩ => ⟨S1x1024x1, .i32⟩
  | .hbm, ⟨33, _⟩ => ⟨S32x1x1, .i32⟩
  | .hbm, ⟨34, _⟩ => ⟨S32x1024x1, .i32⟩
  | .hbm, ⟨35, _⟩ => ⟨S32x1024x1, .i32⟩
  | .hbm, ⟨36, _⟩ => ⟨S32x1024x1, .i1⟩
  | .hbm, ⟨37, _⟩ => ⟨S_, .f32⟩
  | .hbm, ⟨38, _⟩ => ⟨S_, .f32⟩
  | .hbm, ⟨39, _⟩ => ⟨S32x1024x1024, .i1⟩
  | .hbm, ⟨40, _⟩ => ⟨S32x1024x1024, .f32⟩
  | .hbm, ⟨41, _⟩ => ⟨S32x1024x1024, .f32⟩
  | .hbm, ⟨42, _⟩ => ⟨S_, .f32⟩
  | .hbm, ⟨43, _⟩ => ⟨S32x1024, .f32⟩
  | .hbm, ⟨44, _⟩ => ⟨S_, .f32⟩
  | .hbm, ⟨45, _⟩ => ⟨S32x1024, .f32⟩
  | .hbm, ⟨46, _⟩ => ⟨S32x1024, .f32⟩
  | .hbm, ⟨47, _⟩ => ⟨S32x1x1024, .f32⟩
  | .hbm, ⟨48, _⟩ => ⟨S32x1024x1024, .f32⟩
  | .hbm, ⟨49, _⟩ => ⟨S32x1024x1024, .f32⟩
  | .hbm, ⟨50, _⟩ => ⟨S32x1024x1024, .f32⟩
  | .hbm, ⟨51, _⟩ => ⟨S_, .f32⟩
  | .hbm, ⟨52, _⟩ => ⟨S32x1024, .f32⟩
  | .hbm, ⟨53, _⟩ => ⟨S32x1x1024, .f32⟩
  | .hbm, ⟨54, _⟩ => ⟨S32x1024x1024, .f32⟩
  | .hbm, ⟨55, _⟩ => ⟨S32x1024x1024, .f32⟩
  | .hbm, ⟨56, _⟩ => ⟨S32x1024x1024, .f32⟩
  | .hbm, ⟨57, _⟩ => ⟨S32x1024x1024, .f32⟩
  | .hbm, ⟨58, _⟩ => ⟨S32x1024x1024, .f32⟩
  | .hbm, ⟨59, _⟩ => ⟨S32x1024x1024, .f32⟩
  | .hbm, ⟨60, _⟩ => ⟨S32x1024x1024, .f32⟩
  | .hbm, ⟨61, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  bcast_S1024_S1x1024x1_1 : S1024.BroadcastsInDim S1x1024x1 (![1] : Fin 1 → Fin S1x1024x1.rank)
  bcast_S32_S32x1x1_0 : S32.BroadcastsInDim S32x1x1 (![0] : Fin 1 → Fin S32x1x1.rank)
  bcast_S1x1024x1_S32x1024x1_0_1_2 : S1x1024x1.BroadcastsInDim S32x1024x1 (![0, 1, 2] : Fin 3 → Fin S32x1024x1.rank)
  bcast_S32x1x1_S32x1024x1_0_1_2 : S32x1x1.BroadcastsInDim S32x1024x1 (![0, 1, 2] : Fin 3 → Fin S32x1024x1.rank)
  bcast_S32x1024x1_S32x1024x1024_0_1_2 : S32x1024x1.BroadcastsInDim S32x1024x1024 (![0, 1, 2] : Fin 3 → Fin S32x1024x1024.rank)
  bcast_S_S32x1024x1024 : S_.BroadcastsInDim S32x1024x1024 (![] : Fin 0 → Fin S32x1024x1024.rank)
  reducesTo_S32x1024x1024_S32x1024_d1 : S32x1024x1024.ReducesTo [1] S32x1024
  h_S_ : 0 < S_.numel
  bcast_S_S32x1024 : S_.BroadcastsInDim S32x1024 (![] : Fin 0 → Fin S32x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  transposes_S32x1024x1024_S32x1024x1024_0_2_1 : S32x1024x1024.Transposes [0, 2, 1] S32x1024x1024
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_1_1_2_2_0_0_wf : DotDims.WF S32x1024x1024 S32x1024x1024 S32x1024x1024 [1] [1] [2] [2] [0] [0]
  dot_S32x1024x1024_S32x1024x1024_S32x1024x1024_2_1_1_2_0_0_wf : DotDims.WF S32x1024x1024 S32x1024x1024 S32x1024x1024 [2] [1] [1] [2] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_1_1_2_2_0_0 : DotDims S32x1024x1024 S32x1024x1024 S32x1024x1024 where
  lhsContracting := [1]
  rhsContracting := [1]
  lhsNonContracting := [2]
  rhsNonContracting := [2]
  lhsBatch := [0]
  rhsBatch := [0]
  wf := dot_S32x1024x1024_S32x1024x1024_S32x1024x1024_1_1_2_2_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Pieces.lean ====
/-
  What one grid point's run of the kernel body leaves in each output block and in the two carried softmax buffers, as the
  body's arithmetic applied to what the run loaded: the point's whole query and document blocks, the two length words of the
  point's batch entry, the 256-feature slice of each block that the point's feature tile selects and, at a point that is
  not the first of its batch entry, the softmax buffers as the point before left them.
-/
import proofs.«416498_j82798379532305_2_alg».proof.Proof.Gen.KernelIdeal.Frame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The length word of the point's batch entry, read from a table of 32 words. -/
def lenWord (c : Dev nD) (i : grid0.Coords) (M : Memref sig .tc .smem S32 .i32) (xt : TbBuf0 (F := F) c M) : Elt F .i32 :=
  View.readAt (Elt F) M.view (Rect.unit (s := S32) (k0_off1 i) S1.size (k0_off1_inb i)).toLoadRect xt (Shape.Idx.first (show 0 < S1.numel by decide))

/-- The 256 features of a block that the point's feature tile selects. -/
def tileOf (i : grid0.Coords) (x : Vec F S1x1024x1024 .f32) : Vec F S1x1024x256 .f32 :=
  View.ld x (Rect.unit (s := S1x1024x1024) (k0_off2 i) S1x1024x256.size (k0_off2_inb i))

theorem hz3 : (![0, 0, 0] : Fin 3 → Nat) = fun _ => 0 := by funext a; fin_cases a <;> rfl
theorem hz2 : (![0, 0] : Fin 2 → Nat) = fun _ => 0 := by funext a; fin_cases a <;> rfl

/-! ## A point that is the first of its batch entry: both softmaxes are computed here -/

theorem sout0_A_0_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1) :
    sout0_A_0 c i arg4 harg4 arg5 harg5 arg6 harg6 arg7 harg7 arg8 harg8 arg9 harg9 arg10 harg10 hc0 x0 x1 xt0 xt1 = k0_pay2 (lenWord c i tbM0_0 xt0) x0 x1 := by
  unfold sout0_A_0
  rw [View.read_writes_eq_canon _ _ _ (scover0_A_0 c i arg4 harg4 arg5 harg5 arg6 harg6 arg7 harg7 arg8 harg8 arg9 harg9 arg10 harg10 hc0 x0 x1 xt0 xt1)]
  unfold kernelRun0_A
  dsimp only
  sl_unfold_words
  rw [View.canon_unit_zero hz2]
  simp only [View.readAt_eq_ld, harg4.read_unread, harg5.read_unread, View.ld_unit_zero (S := S1x1024x1024) hz3]
  rfl

theorem sout0_A_1_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1) :
    sout0_A_1 c i arg4 harg4 arg5 harg5 arg6 harg6 arg7 harg7 arg8 harg8 arg9 harg9 arg10 harg10 hc0 x0 x1 xt0 xt1 = k0_pay4 (k0_pay3 (lenWord c i tbM0_1 xt1) x0 x1) := by
  unfold sout0_A_1
  rw [View.read_writes_eq_canon _ _ _ (scover0_A_1 c i arg4 harg4 arg5 harg5 arg6 harg6 arg7 harg7 arg8 harg8 arg9 harg9 arg10 harg10 hc0 x0 x1 xt0 xt1)]
  unfold kernelRun0_A
  dsimp only
  sl_unfold_words
  rw [View.canon_unit_zero hz2]
  simp only [View.readAt_eq_ld, harg4.read_unread, harg5.read_unread, View.ld_unit_zero (S := S1x1024x1024) hz3]
  rfl

theorem out0_A_2_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1) :
    out0_A_2 c i arg4 harg4 arg5 harg5 arg6 harg6 arg7 harg7 arg8 harg8 arg9 harg9 arg10 harg10 hc0 x0 x1 xt0 xt1 = k0_pay6 (k0_pay2 (lenWord c i tbM0_0 xt0) x0 x1) (k0_pay4 (k0_pay3 (lenWord c i tbM0_1 xt1) x0 x1)) (tileOf i x1) := by
  unfold out0_A_2
  rw [View.read_writes_eq_canon _ _ _ (cover0_A_2 c i arg4 harg4 arg5 harg5 arg6 harg6 arg7 harg7 arg8 harg8 arg9 harg9 arg10 harg10 hc0 x0 x1 xt0 xt1)]
  unfold kernelRun0_A
  dsimp only
  sl_unfold_words
  rw [View.canon_unit_zero hz3]
  simp only [View.readAt_eq_ld, harg4.read_unread, harg5.read_unread, View.ld_unit_zero (S := S1x1024x1024) hz3, View.readCov_unit_zero (S := S1024x1024) _ hz2]
  rfl

theorem out0_A_3_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1) :
    out0_A_3 c i arg4 harg4 arg5 harg5 arg6 harg6 arg7 harg7 arg8 harg8 arg9 harg9 arg10 harg10 hc0 x0 x1 xt0 xt1 = k0_pay7 (k0_pay4 (k0_pay3 (lenWord c i tbM0_1 xt1) x0 x1)) (tileOf i x1) := by
  unfold out0_A_3
  rw [View.read_writes_eq_canon _ _ _ (cover0_A_3 c i arg4 harg4 arg5 harg5 arg6 harg6 arg7 harg7 arg8 harg8 arg9 harg9 arg10 harg10 hc0 x0 x1 xt0 xt1)]
  unfold kernelRun0_A
  dsimp only
  sl_unfold_words
  rw [View.canon_unit_zero hz3]
  simp only [View.readAt_eq_ld, harg4.read_unread, harg5.read_unread, View.ld_unit_zero (S := S1x1024x1024) hz3, View.readCov_unit_zero (S := S1024x1024) _ hz2]
  rfl

theorem out0_A_4_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1) :
    out0_A_4 c i arg4 harg4 arg5 harg5 arg6 harg6 arg7 harg7 arg8 harg8 arg9 harg9 arg10 harg10 hc0 x0 x1 xt0 xt1 = k0_pay8 (k0_pay2 (lenWord c i tbM0_0 xt0) x0 x1) (tileOf i x0) := by
  unfold out0_A_4
  rw [View.read_writes_eq_canon _ _ _ (cover0_A_4 c i arg4 harg4 arg5 harg5 arg6 harg6 arg7 harg7 arg8 harg8 arg9 harg9 arg10 harg10 hc0 x0 x1 xt0 xt1)]
  unfold kernelRun0_A
  dsimp only
  sl_unfold_words
  rw [View.canon_unit_zero hz3]
  simp only [View.readAt_eq_ld, harg4.read_unread, harg5.read_unread, View.ld_unit_zero (S := S1x1024x1024) hz3, View.readCov_unit_zero (S := S1024x1024) _ hz2]
  rfl

/-! ## A later point of the batch entry: the softmaxes are read as the point before left them -/

theorem out0_B_2_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec F S1x1024x1024 .f32) (x1 : Vec F S1x1024x1024 .f32) (xt0 : TbBuf0 (F := F) c tbM0_0) (xt1 : TbBuf0 (F := F) c tbM0_1) (xs0 : Vec F S1024x1024 .bf16) (xs1 : Vec F S1024x1024 .bf16) :
    out0_B_2 c i arg4 harg4 arg5 harg5 arg6 harg6 arg7 harg7 arg8 harg8 arg9 harg9 arg10 harg10 hc0 x0 x1 xt0 xt1 xs0 xs1 = k0_pay6 xs0 xs1 (tileOf i x1) := by
  unfold out0_B_2
  rw [View.read_writes_eq_canon _ _ _ (cover0_B_2 c i arg4 harg4 arg5 harg5 arg6 harg6 arg7 harg7 arg8 harg8 arg9 harg9 arg10 harg10 hc0 x0 x1 xt0 xt1 xs0 xs1)]
  unfold kernelRun0_B
  dsimp only
  sl_unfold_words
  rw [View.canon_unit_zero hz3]
  simp only [View.readAt_eq_ld, harg4.read_unread, harg5.read_unread, harg9.read_unread, harg10.read_unread, View.ld_unit_zero (S := S1x1024x1024) hz3, View.ld_unit_zero (S := S1024x1024) hz2]
  rfl

theorem out0_B_3_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec F S1x1024x1024 .f32) (x1 : Vec F S1x1024x1024 .f32) (xt0 : TbBuf0 (F := F) c tbM0_0) (xt1 : TbBuf0 (F := F) c tbM0_1) (xs0 : Vec F S1024x1024 .bf16) (xs1 : Vec F S1024x1024 .bf16) :
    out0_B_3 c i arg4 harg4 arg5 harg5 arg6 harg6 arg7 harg7 arg8 harg8 arg9 harg9 arg10 harg10 hc0 x0 x1 xt0 xt1 xs0 xs1 = k0_pay7 xs1 (tileOf i x1) := by
  unfold out0_B_3
  rw [View.read_writes_eq_canon _ _ _ (cover0_B_3 c i arg4 harg4 arg5 harg5 arg6 harg6 arg7 harg7 arg8 harg8 arg9 harg9 arg10 harg10 hc0 x0 x1 xt0 xt1 xs0 xs1)]
  unfold kernelRun0_B
  dsimp only
  sl_unfold_words
  rw [View.canon_unit_zero hz3]
  simp only [View.readAt_eq_ld, harg4.read_unread, harg5.read_unread, harg9.read_unread, harg10.read_unread, View.ld_unit_zero (S := S1x1024x1024) hz3, View.ld_unit_zero (S := S1024x1024) hz2]
  rfl

theorem out0_B_4_eq (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec F S1x1024x1024 .f32) (x1 : Vec F S1x1024x1024 .f32) (xt0 : TbBuf0 (F := F) c tbM0_0) (xt1 : TbBuf0 (F := F) c tbM0_1) (xs0 : Vec F S1024x1024 .bf16) (xs1 : Vec F S1024x1024 .bf16) :
    out0_B_4 c i arg4 harg4 arg5 harg5 arg6 harg6 arg7 harg7 arg8 harg8 arg9 harg9 arg10 harg10 hc0 x0 x1 xt0 xt1 xs0 xs1 = k0_pay8 xs0 (tileOf i x0) := by
  unfold out0_B_4
  rw [View.read_writes_eq_canon _ _ _ (cover0_B_4 c i arg4 harg4 arg5 harg5 arg6 harg6 arg7 harg7 arg8 harg8 arg9 harg9 arg10 harg10 hc0 x0 x1 xt0 xt1 xs0 xs1)]
  unfold kernelRun0_B
  dsimp only
  sl_unfold_words
  rw [View.canon_unit_zero hz3]
  simp only [View.readAt_eq_ld, harg4.read_unread, harg5.read_unread, harg9.read_unread, harg10.read_unread, View.ld_unit_zero (S := S1x1024x1024) hz3, View.ld_unit_zero (S := S1024x1024) hz2]
  rfl

end Cert.KernelIdeal.Gen

end
-- ==== Proof.Carry.lean ====
/-
  The softmax buffers are carried across the four feature tiles of a batch entry: the point that opens batch entry `b`
  computes both softmaxes of its affinity matrix from the entry's whole query and document blocks, and the three later
  points of the entry find them as the point before left them. By induction on the point, after EVERY point of the grid
  the two buffers hold the softmaxes of that point's batch entry, and the three output blocks hold the body's three
  products of those softmaxes with the point's 256-feature slices of the entry's blocks.
-/
import proofs.«416498_j82798379532305_2_alg».proof.Proof.Pieces
import Idealize.ShloMosaic.Lib.ValueIdx

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The query and document arrays and the two tables of lengths, as the region finds them. -/
abbrev qArr (c : Dev nD) : Vec F S32x1024x1024 .f32 := V m c main_arg0
abbrev dArr (c : Dev nD) : Vec F S32x1024x1024 .f32 := V m c main_arg1
abbrev qLens : Vec F S32 .i32 := tbl m 0
abbrev dLens : Vec F S32 .i32 := tbl m 1

/-- Batch entry `b` of an array, as a block. -/
def entry (x : Vec F S32x1024x1024 .f32) (b : Fin 32) : Vec F S1x1024x1024 .f32 :=
  fun y => x (ix3 b (⟨(y 1).val, (y 1).isLt⟩ : Fin 1024) (⟨(y 2).val, (y 2).isLt⟩ : Fin 1024))

/-- A grid point's coordinates: batch entry `t / 4`, feature tile `t % 4`. -/
theorem grid_coords : ∀ t : Fin grid0.N, ((grid0.coords t) 0).val = t.val / 4 ∧ ((grid0.coords t) 1).val = t.val % 4 :=
  (by decide +kernel : ∀ t : Fin grid0.N, ((grid0.coords t) 0).val = t.val / 4 ∧ ((grid0.coords t) 1).val = t.val % 4)

/-- Both input windows fetch the whole block of batch entry `t / 4`, whatever the feature tile. -/
theorem idx_in : ∀ t : Fin grid0.N, cc0_transform_0 (grid0.coords t) 0 = t.val / 4 ∧ cc0_transform_0 (grid0.coords t) 1 = 0 ∧ cc0_transform_0 (grid0.coords t) 2 = 0
    ∧ cc0_transform_1 (grid0.coords t) 0 = t.val / 4 ∧ cc0_transform_1 (grid0.coords t) 1 = 0 ∧ cc0_transform_1 (grid0.coords t) 2 = 0 :=
  (by decide +kernel : ∀ t : Fin grid0.N, cc0_transform_0 (grid0.coords t) 0 = t.val / 4 ∧ cc0_transform_0 (grid0.coords t) 1 = 0 ∧ cc0_transform_0 (grid0.coords t) 2 = 0
    ∧ cc0_transform_1 (grid0.coords t) 0 = t.val / 4 ∧ cc0_transform_1 (grid0.coords t) 1 = 0 ∧ cc0_transform_1 (grid0.coords t) 2 = 0)

/-- The query block a point is handed is its batch entry of the query array. -/
theorem iblk0_eq (hO : Ok m) (c : Dev nD) (t : Fin (cfgM m hO).N) (b : Fin 32) (hb : b.val = t.val / 4) :
    (iblk m hO c 0 t : Vec F S1x1024x1024 .f32) = entry (qArr m c) b := by
  refine funext fun (j : S1x1024x1024.Idx) => ?_
  unfold iblk entry
  show V m c main_arg0 ((((cfgM m hO).win 0).blk t).view.emb j) = V m c main_arg0 _
  congr 1
  funext a
  apply Fin.ext
  have h0 : (j 0).val < 1 := (j 0).isLt
  obtain ⟨e0, e1, e2, -⟩ := idx_in t
  match a with
  | ⟨0, _⟩ =>
    show cc0_transform_0 (grid0.coords t) 0 * 1 + 1 * (j 0).val = b.val
    rw [e0]; omega
  | ⟨1, _⟩ =>
    show cc0_transform_0 (grid0.coords t) 1 * 1024 + 1 * (j 1).val = (j 1).val
    rw [e1]; omega
  | ⟨2, _⟩ =>
    show cc0_transform_0 (grid0.coords t) 2 * 1024 + 1 * (j 2).val = (j 2).val
    rw [e2]; omega

/-- The document block a point is handed is its batch entry of the document array. -/
theorem iblk1_eq (hO : Ok m) (c : Dev nD) (t : Fin (cfgM m hO).N) (b : Fin 32) (hb : b.val = t.val / 4) :
    (iblk m hO c 1 t : Vec F S1x1024x1024 .f32) = entry (dArr m c) b := by
  refine funext fun (j : S1x1024x1024.Idx) => ?_
  unfold iblk entry
  show V m c main_arg1 ((((cfgM m hO).win 1).blk t).view.emb j) = V m c main_arg1 _
  congr 1
  funext a
  apply Fin.ext
  have h0 : (j 0).val < 1 := (j 0).isLt
  obtain ⟨-, -, -, e0, e1, e2⟩ := idx_in t
  match a with
  | ⟨0, _⟩ =>
    show cc0_transform_1 (grid0.coords t) 0 * 1 + 1 * (j 0).val = b.val
    rw [e0]; omega
  | ⟨1, _⟩ =>
    show cc0_transform_1 (grid0.coords t) 1 * 1024 + 1 * (j 1).val = (j 1).val
    rw [e1]; omega
  | ⟨2, _⟩ =>
    show cc0_transform_1 (grid0.coords t) 2 * 1024 + 1 * (j 2).val = (j 2).val
    rw [e2]; omega

/-- The query-length word the body reads is the table's word of the point's batch entry. -/
theorem lenWord0_eq (c : Dev nD) (i : grid0.Coords) (xt : TbBuf0 (F := F) c tbM0_0) (b : Fin 32) (hb : b.val = (i 0).val) :
    lenWord c i tbM0_0 xt = (xt : Vec F S32 .i32) (ix1 b) := by
  unfold lenWord
  show (xt : Vec F S32 .i32) _ = _
  congr 1
  funext a
  apply Fin.ext
  match a with
  | ⟨0, _⟩ =>
    show k0_off1 i 0 + 1 * 0 = b.val
    rw [k0_off1_eq i, hb]; rfl

/-- The document-length word likewise. -/
theorem lenWord1_eq (c : Dev nD) (i : grid0.Coords) (xt : TbBuf0 (F := F) c tbM0_1) (b : Fin 32) (hb : b.val = (i 0).val) :
    lenWord c i tbM0_1 xt = (xt : Vec F S32 .i32) (ix1 b) := by
  unfold lenWord
  show (xt : Vec F S32 .i32) _ = _
  congr 1
  funext a
  apply Fin.ext
  match a with
  | ⟨0, _⟩ =>
    show k0_off1 i 0 + 1 * 0 = b.val
    rw [k0_off1_eq i, hb]; rfl

/-- The batch entry of grid point `n`. -/
def bOf (n : ℕ) : Fin 32 := ⟨(n / 4) % 32, Nat.mod_lt _ (by decide)⟩

theorem bOf_val (n : ℕ) (hn : n < 128) : (bOf n).val = n / 4 := by
  show (n / 4) % 32 = n / 4
  omega

/-- The softmax over the query positions of batch entry `b`, as the body computes it. -/
def aqBuf (c : Dev nD) (b : Fin 32) : Vec F S1024x1024 .bf16 :=
  k0_pay2 (qLens m (ix1 b)) (entry (qArr m c) b) (entry (dArr m c) b)
/-- The softmax over the document positions of batch entry `b`, as the body computes it. -/
def adBuf (c : Dev nD) (b : Fin 32) : Vec F S1024x1024 .bf16 :=
  k0_pay4 (k0_pay3 (dLens m (ix1 b)) (entry (qArr m c) b) (entry (dArr m c) b))

/-- What a point opening a batch entry leaves, over variables: the five found pieces at once. -/
theorem caseA_vals (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : cond0_0 i)
    (x0 : Vec F S1x1024x1024 .f32) (x1 : Vec F S1x1024x1024 .f32) (xt0 : TbBuf0 (F := F) c tbM0_0) (xt1 : TbBuf0 (F := F) c tbM0_1)
    (w0 w1 : Elt F .i32) (X0 X1 : Vec F S1x1024x1024 .f32)
    (h0 : lenWord c i tbM0_0 xt0 = w0) (h1 : lenWord c i tbM0_1 xt1 = w1) (hx0 : x0 = X0) (hx1 : x1 = X1) :
    (out0_A_2 c i arg4 harg4 arg5 harg5 arg6 harg6 arg7 harg7 arg8 harg8 arg9 harg9 arg10 harg10 hc0 x0 x1 xt0 xt1, out0_A_3 c i arg4 harg4 arg5 harg5 arg6 harg6 arg7 harg7 arg8 harg8 arg9 harg9 arg10 harg10 hc0 x0 x1 xt0 xt1, out0_A_4 c i arg4 harg4 arg5 harg5 arg6 harg6 arg7 harg7 arg8 harg8 arg9 harg9 arg10 harg10 hc0 x0 x1 xt0 xt1, sout0_A_0 c i arg4 harg4 arg5 harg5 arg6 harg6 arg7 harg7 arg8 harg8 arg9 harg9 arg10 harg10 hc0 x0 x1 xt0 xt1, sout0_A_1 c i arg4 harg4 arg5 harg5 arg6 harg6 arg7 harg7 arg8 harg8 arg9 harg9 arg10 harg10 hc0 x0 x1 xt0 xt1)
      = (k0_pay6 (k0_pay2 w0 X0 X1) (k0_pay4 (k0_pay3 w1 X0 X1)) (tileOf i X1), k0_pay7 (k0_pay4 (k0_pay3 w1 X0 X1)) (tileOf i X1),
          k0_pay8 (k0_pay2 w0 X0 X1) (tileOf i X0), k0_pay2 w0 X0 X1, k0_pay4 (k0_pay3 w1 X0 X1)) := by
  subst hx0 hx1 h0 h1
  rw [out0_A_2_eq, out0_A_3_eq, out0_A_4_eq, sout0_A_0_eq, sout0_A_1_eq]

/-- What a later point of a batch entry leaves, over variables. -/
theorem caseB_vals (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x256 .f32) (harg6 : arg6.IsWhole) (arg7 : Memref sig .tc .vmem S1x1024x256 .f32) (harg7 : arg7.IsWhole) (arg8 : Memref sig .tc .vmem S1x1024x256 .f32) (harg8 : arg8.IsWhole) (arg9 : Memref sig .tc .vmem S1024x1024 .bf16) (harg9 : arg9.IsWhole) (arg10 : Memref sig .tc .vmem S1024x1024 .bf16) (harg10 : arg10.IsWhole) (hc0 : ¬cond0_0 i)
    (x0 : Vec F S1x1024x1024 .f32) (x1 : Vec F S1x1024x1024 .f32) (xt0 : TbBuf0 (F := F) c tbM0_0) (xt1 : TbBuf0 (F := F) c tbM0_1) (xs0 : Vec F S1024x1024 .bf16) (xs1 : Vec F S1024x1024 .bf16)
    (X0 X1 : Vec F S1x1024x1024 .f32) (S0 S1 : Vec F S1024x1024 .bf16) (hx0 : x0 = X0) (hx1 : x1 = X1) (hs0 : xs0 = S0) (hs1 : xs1 = S1) :
    (out0_B_2 c i arg4 harg4 arg5 harg5 arg6 harg6 arg7 harg7 arg8 harg8 arg9 harg9 arg10 harg10 hc0 x0 x1 xt0 xt1 xs0 xs1, out0_B_3 c i arg4 harg4 arg5 harg5 arg6 harg6 arg7 harg7 arg8 harg8 arg9 harg9 arg10 harg10 hc0 x0 x1 xt0 xt1 xs0 xs1, out0_B_4 c i arg4 harg4 arg5 harg5 arg6 harg6 arg7 harg7 arg8 harg8 arg9 harg9 arg10 harg10 hc0 x0 x1 xt0 xt1 xs0 xs1, sout0_B_0 c i arg4 harg4 arg5 harg5 arg6 harg6 arg7 harg7 arg8 harg8 arg9 harg9 arg10 harg10 hc0 x0 x1 xt0 xt1 xs0 xs1, sout0_B_1 c i arg4 harg4 arg5 harg5 arg6 harg6 arg7 harg7 arg8 harg8 arg9 harg9 arg10 harg10 hc0 x0 x1 xt0 xt1 xs0 xs1)
      = (k0_pay6 S0 S1 (tileOf i X1), k0_pay7 S1 (tileOf i X1), k0_pay8 S0 (tileOf i X0), S0, S1) := by
  subst hx0 hx1 hs0 hs1
  rw [out0_B_2_eq, out0_B_3_eq, out0_B_4_eq]
  rfl

/-- AFTER EVERY POINT: the output blocks and the carried buffers, in closed form. -/
theorem outsAt0_eq (hO : Ok m) (c : Dev nD) : ∀ (n : ℕ) (hn : n < (cfgM m hO).N),
    outsAt0 m hO c n hn
      = (k0_pay6 (aqBuf m c (bOf n)) (adBuf m c (bOf n)) (tileOf (grid0.coords ⟨n, hn⟩) (entry (dArr m c) (bOf n))),
          k0_pay7 (adBuf m c (bOf n)) (tileOf (grid0.coords ⟨n, hn⟩) (entry (dArr m c) (bOf n))),
          k0_pay8 (aqBuf m c (bOf n)) (tileOf (grid0.coords ⟨n, hn⟩) (entry (qArr m c) (bOf n))),
          aqBuf m c (bOf n), adBuf m c (bOf n))
  | 0, hn => by
    have hN : (cfgM m hO).N = 128 := N_0
    have hb : (bOf 0).val = (⟨0, hn⟩ : Fin (cfgM m hO).N).val / 4 := bOf_val 0 (by decide)
    have hg := (grid_coords ⟨0, hn⟩).1
    refine (outsAt0_A m hO c ⟨0, hn⟩ rfl).trans ?_
    exact caseA_vals c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) scM0_0 (Memref.isWhole_whole _) scM0_1 (Memref.isWhole_whole _) ((hcond0_0 ⟨0, hn⟩).mpr rfl) (iblk m hO c 0 ⟨0, hn⟩) (iblk m hO c 1 ⟨0, hn⟩) (tbl m 0) (tbl m 1)
      (qLens m (ix1 (bOf 0))) (dLens m (ix1 (bOf 0))) (entry (qArr m c) (bOf 0)) (entry (dArr m c) (bOf 0))
      (lenWord0_eq c _ (tbl m 0) (bOf 0) (hb.trans hg.symm)) (lenWord1_eq c _ (tbl m 1) (bOf 0) (hb.trans hg.symm))
      (iblk0_eq m hO c ⟨0, hn⟩ (bOf 0) hb) (iblk1_eq m hO c ⟨0, hn⟩ (bOf 0) hb)
  | n + 1, hn => by
    have hN : (cfgM m hO).N = 128 := N_0
    have hn' : n + 1 < 128 := lt_of_lt_of_eq hn hN
    have hb : (bOf (n + 1)).val = (⟨n + 1, hn⟩ : Fin (cfgM m hO).N).val / 4 := bOf_val (n + 1) hn'
    have hg := (grid_coords ⟨n + 1, hn⟩).1
    by_cases h0 : (⟨n + 1, hn⟩ : Fin (cfgM m hO).N).val % 4 = 0
    · refine (outsAt0_A m hO c ⟨n + 1, hn⟩ h0).trans ?_
      exact caseA_vals c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) ((hcond0_0 ⟨n + 1, hn⟩).mpr h0) (iblk m hO c 0 ⟨n + 1, hn⟩) (iblk m hO c 1 ⟨n + 1, hn⟩) (tbl m 0) (tbl m 1)
        (qLens m (ix1 (bOf (n + 1)))) (dLens m (ix1 (bOf (n + 1)))) (entry (qArr m c) (bOf (n + 1))) (entry (dArr m c) (bOf (n + 1)))
        (lenWord0_eq c _ (tbl m 0) (bOf (n + 1)) (hb.trans hg.symm)) (lenWord1_eq c _ (tbl m 1) (bOf (n + 1)) (hb.trans hg.symm))
        (iblk0_eq m hO c ⟨n + 1, hn⟩ (bOf (n + 1)) hb) (iblk1_eq m hO c ⟨n + 1, hn⟩ (bOf (n + 1)) hb)
    · have hbb : bOf n = bOf (n + 1) := Fin.ext (by
        rw [bOf_val n (by omega), bOf_val (n + 1) hn']
        have : (n + 1) % 4 ≠ 0 := h0
        omega)
      have ih := outsAt0_eq hO c n (Nat.lt_of_succ_lt hn)
      refine (outsAt0_B m hO c ⟨n + 1, hn⟩ h0).trans ?_
      exact caseB_vals c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) scM0_0 (Memref.isWhole_whole _) scM0_1 (Memref.isWhole_whole _) (fun h => h0 ((hcond0_0 ⟨n + 1, hn⟩).mp h)) (iblk m hO c 0 ⟨n + 1, hn⟩) (iblk m hO c 1 ⟨n + 1, hn⟩) (tbl m 0) (tbl m 1)
        (outsAt0 m hO c n (Nat.lt_of_succ_lt hn)).2.2.2.1 (outsAt0 m hO c n (Nat.lt_of_succ_lt hn)).2.2.2.2
        (entry (qArr m c) (bOf (n + 1))) (entry (dArr m c) (bOf (n + 1))) (aqBuf m c (bOf (n + 1))) (adBuf m c (bOf (n + 1)))
        (iblk0_eq m hO c ⟨n + 1, hn⟩ (bOf (n + 1)) hb) (iblk1_eq m hO c ⟨n + 1, hn⟩ (bOf (n + 1)) hb)
        (by rw [ih, hbb]) (by rw [ih, hbb])

end Cert.KernelIdeal.Gen

end
-- ==== Proof.Cover.lean ====
/-
  From blocks to arrays. Each of the three result arrays is written back block by block: grid point `t` writes the block of
  batch entry `t / 4` and feature tile `t % 4` (all 1024 positions, 256 features). The 128 blocks tile the array, so if at
  every point the block the body leaves is that block of one whole-array function `G`, the array ends holding `G`.
-/
import proofs.«416498_j82798379532305_2_alg».proof.Proof.Carry

set_option maxRecDepth 16384

noncomputable section

namespace Cert.KernelIdeal.Gen

open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- Where element `y` of point `n`'s output block sits in the result array: batch entry `n / 4`, the same position,
    feature `256 (n % 4) + y₂`. (The remainders only make the coordinates total; on the grid they change nothing.) -/
def tileIdx (n : ℕ) (y : S1x1024x256.Idx) : S32x1024x1024.Idx :=
  ix3 (⟨(n / 4) % 32, Nat.mod_lt _ (by decide)⟩ : Fin 32) (⟨(y 1).val, (y 1).isLt⟩ : Fin 1024)
    (⟨(256 * (n % 4) + (y 2).val) % 1024, Nat.mod_lt _ (by decide)⟩ : Fin 1024)

/-- The three output windows' block index at point `t`: `(t / 4, 0, t % 4)`. -/
theorem idx_out2 : ∀ t : Fin grid0.N, cc0_transform_2 (grid0.coords t) 0 = t.val / 4 ∧ cc0_transform_2 (grid0.coords t) 1 = 0 ∧ cc0_transform_2 (grid0.coords t) 2 = t.val % 4 :=
  (by decide +kernel : ∀ t : Fin grid0.N, cc0_transform_2 (grid0.coords t) 0 = t.val / 4 ∧ cc0_transform_2 (grid0.coords t) 1 = 0 ∧ cc0_transform_2 (grid0.coords t) 2 = t.val % 4)
theorem idx_out3 : ∀ t : Fin grid0.N, cc0_transform_3 (grid0.coords t) 0 = t.val / 4 ∧ cc0_transform_3 (grid0.coords t) 1 = 0 ∧ cc0_transform_3 (grid0.coords t) 2 = t.val % 4 :=
  (by decide +kernel : ∀ t : Fin grid0.N, cc0_transform_3 (grid0.coords t) 0 = t.val / 4 ∧ cc0_transform_3 (grid0.coords t) 1 = 0 ∧ cc0_transform_3 (grid0.coords t) 2 = t.val % 4)
theorem idx_out4 : ∀ t : Fin grid0.N, cc0_transform_4 (grid0.coords t) 0 = t.val / 4 ∧ cc0_transform_4 (grid0.coords t) 1 = 0 ∧ cc0_transform_4 (grid0.coords t) 2 = t.val % 4 :=
  (by decide +kernel : ∀ t : Fin grid0.N, cc0_transform_4 (grid0.coords t) 0 = t.val / 4 ∧ cc0_transform_4 (grid0.coords t) 1 = 0 ∧ cc0_transform_4 (grid0.coords t) 2 = t.val % 4)

/-- What point `t` writes back through output window 2 is its block of `G`, when the body's block is. -/
theorem flushed2_eq (hO : Ok m) (c : Dev nD) (G : Vec F S32x1024x1024 .f32)
    (hG : ∀ (t : Fin (cfgM m hO).N) (y : S1x1024x256.Idx), (outsAt0 m hO c t.val t.isLt).1 y = G (tileIdx t.val y))
    (t : Fin (cfgM m hO).N) :
    (dats m hO 0 c).flushed 2 t = (((cfgM m hO).win 2).blk t).view.read (Elt F) G := by
  show ((cfgM m hO).win 2).cut (grid0.coords t) ((dats m hO 0 c).after 2 t) = _
  rw [after0_2]
  refine funext fun (y : S1x1024x256.Idx) => ?_
  show (outsAt0 m hO c t.val t.isLt).1 y = G ((((cfgM m hO).win 2).blk t).view.emb y)
  rw [hG t y]
  congr 1
  funext a
  apply Fin.ext
  have hN : t.val < 128 := lt_of_lt_of_eq t.isLt (show (cfgM m hO).N = 128 from N_0)
  have h0 : (y 0).val < 1 := (y 0).isLt
  have h2 : (y 2).val < 256 := (y 2).isLt
  obtain ⟨e0, e1, e2⟩ := idx_out2 t
  match a with
  | ⟨0, _⟩ =>
    show (t.val / 4) % 32 = cc0_transform_2 (grid0.coords t) 0 * 1 + 1 * (y 0).val
    rw [e0]; omega
  | ⟨1, _⟩ =>
    show (y 1).val = cc0_transform_2 (grid0.coords t) 1 * 1024 + 1 * (y 1).val
    rw [e1]; omega
  | ⟨2, _⟩ =>
    show (256 * (t.val % 4) + (y 2).val) % 1024 = cc0_transform_2 (grid0.coords t) 2 * 256 + 1 * (y 2).val
    rw [e2]; omega

/-- An index of the array lies in point `t`'s block of window 2 iff each coordinate lies in the block's range. -/
theorem mem_blk2 (hO : Ok m) (t : Fin (cfgM m hO).N) (i : S32x1024x1024.Idx) :
    i ∈ (((cfgM m hO).win 2).blk t).view.set ↔ ∀ a : Fin 3, cc0_transform_2 (grid0.coords t) a * S1x1024x256.size a ≤ (i a).val ∧ (i a).val < cc0_transform_2 (grid0.coords t) a * S1x1024x256.size a + S1x1024x256.size a := by
  refine Iff.trans (Eq.to_iff (congrArg (fun s => i ∈ s) (View.set_slice_whole main_v0_0 (((cfgM m hO).win 2).rect t)))) ?_
  exact Rect.mem_set_unit

/-- The 128 blocks of window 2 cover its array: index `(b, r, f)` lies in the block of point `4 b + f / 256`. -/
theorem cover2 (hO : Ok m) (i : S32x1024x1024.Idx) :
    ∃ t : Fin (cfgM m hO).N, ((cfgM m hO).win 2).flush t = true ∧ i ∈ (((cfgM m hO).win 2).blk t).view.set := by
  have hN : (cfgM m hO).N = 128 := N_0
  have i0 : (i 0).val < 32 := (i 0).isLt
  have i1 : (i 1).val < 1024 := (i 1).isLt
  have i2 : (i 2).val < 1024 := (i 2).isLt
  refine ⟨⟨4 * (i 0).val + (i 2).val / 256, by have hN' : grid0.N = 128 := N_0; omega⟩, flush0_2 (adm m hO) _, ?_⟩
  rw [mem_blk2]
  obtain ⟨e0, e1, e2⟩ := idx_out2 ⟨4 * (i 0).val + (i 2).val / 256, by have hN' : grid0.N = 128 := N_0; omega⟩
  intro a
  match a with
  | ⟨0, _⟩ =>
    show cc0_transform_2 (grid0.coords _) 0 * 1 ≤ (i 0).val ∧ (i 0).val < cc0_transform_2 (grid0.coords _) 0 * 1 + 1
    rw [e0]; dsimp only; omega
  | ⟨1, _⟩ =>
    show cc0_transform_2 (grid0.coords _) 1 * 1024 ≤ (i 1).val ∧ (i 1).val < cc0_transform_2 (grid0.coords _) 1 * 1024 + 1024
    rw [e1]; omega
  | ⟨2, _⟩ =>
    show cc0_transform_2 (grid0.coords _) 2 * 256 ≤ (i 2).val ∧ (i 2).val < cc0_transform_2 (grid0.coords _) 2 * 256 + 256
    rw [e2]; dsimp only; omega

/-- So the array of window 2 ends holding `G`. -/
theorem final2 (hO : Ok m) (c : Dev nD) (G : Vec F S32x1024x1024 .f32)
    (hG : ∀ (t : Fin (cfgM m hO).N) (y : S1x1024x256.Idx), (outsAt0 m hO c t.val t.isLt).1 y = G (tileIdx t.val y)) :
    (dats m hO 0 c).arrAt 2 (cfgM m hO).N = G :=
  (dats m hO 0 c).arrAt_eq_of_cover 2 G (fun t _ => flushed2_eq m hO c G hG t) (cover2 m hO)

/-- What point `t` writes back through output window 3 is its block of `G`, when the body's block is. -/
theorem flushed3_eq (hO : Ok m) (c : Dev nD) (G : Vec F S32x1024x1024 .f32)
    (hG : ∀ (t : Fin (cfgM m hO).N) (y : S1x1024x256.Idx), (outsAt0 m hO c t.val t.isLt).2.1 y = G (tileIdx t.val y))
    (t : Fin (cfgM m hO).N) :
    (dats m hO 0 c).flushed 3 t = (((cfgM m hO).win 3).blk t).view.read (Elt F) G := by
  show ((cfgM m hO).win 3).cut (grid0.coords t) ((dats m hO 0 c).after 3 t) = _
  rw [after0_3]
  refine funext fun (y : S1x1024x256.Idx) => ?_
  show (outsAt0 m hO c t.val t.isLt).2.1 y = G ((((cfgM m hO).win 3).blk t).view.emb y)
  rw [hG t y]
  congr 1
  funext a
  apply Fin.ext
  have hN : t.val < 128 := lt_of_lt_of_eq t.isLt (show (cfgM m hO).N = 128 from N_0)
  have h0 : (y 0).val < 1 := (y 0).isLt
  have h2 : (y 2).val < 256 := (y 2).isLt
  obtain ⟨e0, e1, e2⟩ := idx_out3 t
  match a with
  | ⟨0, _⟩ =>
    show (t.val / 4) % 32 = cc0_transform_3 (grid0.coords t) 0 * 1 + 1 * (y 0).val
    rw [e0]; omega
  | ⟨1, _⟩ =>
    show (y 1).val = cc0_transform_3 (grid0.coords t) 1 * 1024 + 1 * (y 1).val
    rw [e1]; omega
  | ⟨2, _⟩ =>
    show (256 * (t.val % 4) + (y 2).val) % 1024 = cc0_transform_3 (grid0.coords t) 2 * 256 + 1 * (y 2).val
    rw [e2]; omega

/-- An index of the array lies in point `t`'s block of window 3 iff each coordinate lies in the block's range. -/
theorem mem_blk3 (hO : Ok m) (t : Fin (cfgM m hO).N) (i : S32x1024x1024.Idx) :
    i ∈ (((cfgM m hO).win 3).blk t).view.set ↔ ∀ a : Fin 3, cc0_transform_3 (grid0.coords t) a * S1x1024x256.size a ≤ (i a).val ∧ (i a).val < cc0_transform_3 (grid0.coords t) a * S1x1024x256.size a + S1x1024x256.size a := by
  refine Iff.trans (Eq.to_iff (congrArg (fun s => i ∈ s) (View.set_slice_whole main_v0_1 (((cfgM m hO).win 3).rect t)))) ?_
  exact Rect.mem_set_unit

/-- The 128 blocks of window 3 cover its array: index `(b, r, f)` lies in the block of point `4 b + f / 256`. -/
theorem cover3 (hO : Ok m) (i : S32x1024x1024.Idx) :
    ∃ t : Fin (cfgM m hO).N, ((cfgM m hO).win 3).flush t = true ∧ i ∈ (((cfgM m hO).win 3).blk t).view.set := by
  have hN : (cfgM m hO).N = 128 := N_0
  have i0 : (i 0).val < 32 := (i 0).isLt
  have i1 : (i 1).val < 1024 := (i 1).isLt
  have i2 : (i 2).val < 1024 := (i 2).isLt
  refine ⟨⟨4 * (i 0).val + (i 2).val / 256, by have hN' : grid0.N = 128 := N_0; omega⟩, flush0_3 (adm m hO) _, ?_⟩
  rw [mem_blk3]
  obtain ⟨e0, e1, e2⟩ := idx_out3 ⟨4 * (i 0).val + (i 2).val / 256, by have hN' : grid0.N = 128 := N_0; omega⟩
  intro a
  match a with
  | ⟨0, _⟩ =>
    show cc0_transform_3 (grid0.coords _) 0 * 1 ≤ (i 0).val ∧ (i 0).val < cc0_transform_3 (grid0.coords _) 0 * 1 + 1
    rw [e0]; dsimp only; omega
  | ⟨1, _⟩ =>
    show cc0_transform_3 (grid0.coords _) 1 * 1024 ≤ (i 1).val ∧ (i 1).val < cc0_transform_3 (grid0.coords _) 1 * 1024 + 1024
    rw [e1]; omega
  | ⟨2, _⟩ =>
    show cc0_transform_3 (grid0.coords _) 2 * 256 ≤ (i 2).val ∧ (i 2).val < cc0_transform_3 (grid0.coords _) 2 * 256 + 256
    rw [e2]; dsimp only; omega

/-- So the array of window 3 ends holding `G`. -/
theorem final3 (hO : Ok m) (c : Dev nD) (G : Vec F S32x1024x1024 .f32)
    (hG : ∀ (t : Fin (cfgM m hO).N) (y : S1x1024x256.Idx), (outsAt0 m hO c t.val t.isLt).2.1 y = G (tileIdx t.val y)) :
    (dats m hO 0 c).arrAt 3 (cfgM m hO).N = G :=
  (dats m hO 0 c).arrAt_eq_of_cover 3 G (fun t _ => flushed3_eq m hO c G hG t) (cover3 m hO)

/-- What point `t` writes back through output window 4 is its block of `G`, when the body's block is. -/
theorem flushed4_eq (hO : Ok m) (c : Dev nD) (G : Vec F S32x1024x1024 .f32)
    (hG : ∀ (t : Fin (cfgM m hO).N) (y : S1x1024x256.Idx), (outsAt0 m hO c t.val t.isLt).2.2.1 y = G (tileIdx t.val y))
    (t : Fin (cfgM m hO).N) :
    (dats m hO 0 c).flushed 4 t = (((cfgM m hO).win 4).blk t).view.read (Elt F) G := by
  show ((cfgM m hO).win 4).cut (grid0.coords t) ((dats m hO 0 c).after 4 t) = _
  rw [after0_4]
  refine funext fun (y : S1x1024x256.Idx) => ?_
  show (outsAt0 m hO c t.val t.isLt).2.2.1 y = G ((((cfgM m hO).win 4).blk t).view.emb y)
  rw [hG t y]
  congr 1
  funext a
  apply Fin.ext
  have hN : t.val < 128 := lt_of_lt_of_eq t.isLt (show (cfgM m hO).N = 128 from N_0)
  have h0 : (y 0).val < 1 := (y 0).isLt
  have h2 : (y 2).val < 256 := (y 2).isLt
  obtain ⟨e0, e1, e2⟩ := idx_out4 t
  match a with
  | ⟨0, _⟩ =>
    show (t.val / 4) % 32 = cc0_transform_4 (grid0.coords t) 0 * 1 + 1 * (y 0).val
    rw [e0]; omega
  | ⟨1, _⟩ =>
    show (y 1).val = cc0_transform_4 (grid0.coords t) 1 * 1024 + 1 * (y 1).val
    rw [e1]; omega
  | ⟨2, _⟩ =>
    show (256 * (t.val % 4) + (y 2).val) % 1024 = cc0_transform_4 (grid0.coords t) 2 * 256 + 1 * (y 2).val
    rw [e2]; omega

/-- An index of the array lies in point `t`'s block of window 4 iff each coordinate lies in the block's range. -/
theorem mem_blk4 (hO : Ok m) (t : Fin (cfgM m hO).N) (i : S32x1024x1024.Idx) :
    i ∈ (((cfgM m hO).win 4).blk t).view.set ↔ ∀ a : Fin 3, cc0_transform_4 (grid0.coords t) a * S1x1024x256.size a ≤ (i a).val ∧ (i a).val < cc0_transform_4 (grid0.coords t) a * S1x1024x256.size a + S1x1024x256.size a := by
  refine Iff.trans (Eq.to_iff (congrArg (fun s => i ∈ s) (View.set_slice_whole main_v0_2 (((cfgM m hO).win 4).rect t)))) ?_
  exact Rect.mem_set_unit

/-- The 128 blocks of window 4 cover its array: index `(b, r, f)` lies in the block of point `4 b + f / 256`. -/
theorem cover4 (hO : Ok m) (i : S32x1024x1024.Idx) :
    ∃ t : Fin (cfgM m hO).N, ((cfgM m hO).win 4).flush t = true ∧ i ∈ (((cfgM m hO).win 4).blk t).view.set := by
  have hN : (cfgM m hO).N = 128 := N_0
  have i0 : (i 0).val < 32 := (i 0).isLt
  have i1 : (i 1).val < 1024 := (i 1).isLt
  have i2 : (i 2).val < 1024 := (i 2).isLt
  refine ⟨⟨4 * (i 0).val + (i 2).val / 256, by have hN' : grid0.N = 128 := N_0; omega⟩, flush0_4 (adm m hO) _, ?_⟩
  rw [mem_blk4]
  obtain ⟨e0, e1, e2⟩ := idx_out4 ⟨4 * (i 0).val + (i 2).val / 256, by have hN' : grid0.N = 128 := N_0; omega⟩
  intro a
  match a with
  | ⟨0, _⟩ =>
    show cc0_transform_4 (grid0.coords _) 0 * 1 ≤ (i 0).val ∧ (i 0).val < cc0_transform_4 (grid0.coords _) 0 * 1 + 1
    rw [e0]; dsimp only; omega
  | ⟨1, _⟩ =>
    show cc0_transform_4 (grid0.coords _) 1 * 1024 ≤ (i 1).val ∧ (i 1).val < cc0_transform_4 (grid0.coords _) 1 * 1024 + 1024
    rw [e1]; omega
  | ⟨2, _⟩ =>
    show cc0_transform_4 (grid0.coords _) 2 * 256 ≤ (i 2).val ∧ (i 2).val < cc0_transform_4 (grid0.coords _) 2 * 256 + 256
    rw [e2]; dsimp only; omega

/-- So the array of window 4 ends holding `G`. -/
theorem final4 (hO : Ok m) (c : Dev nD) (G : Vec F S32x1024x1024 .f32)
    (hG : ∀ (t : Fin (cfgM m hO).N) (y : S1x1024x256.Idx), (outsAt0 m hO c t.val t.isLt).2.2.1 y = G (tileIdx t.val y)) :
    (dats m hO 0 c).arrAt 4 (cfgM m hO).N = G :=
  (dats m hO 0 c).arrAt_eq_of_cover 4 G (fun t _ => flushed4_eq m hO c G hG t) (cover4 m hO)

end Cert.KernelIdeal.Gen

end
-- ==== Proof.Spec.lean ====
/-
  Bidirectional, length-masked co-attention for ONE batch entry, as plain functions on the extended reals.

  `Q` and `D` are the batch entry's query and document matrices (position × feature). The affinity of query
  position `i` and document position `j` is the inner product `∑ h, Q i h * D j h`. Two masked softmaxes are taken of
  the affinity matrix: down its query axis, the query positions at or beyond the query length `ql` replaced by the
  finite stand-in `-1e9` (`aq`), and along its document axis, the document positions at or beyond the document
  length `dl` replaced likewise (`adT`). Each softmax subtracts the maximum over the normalised axis (a fold of `max`
  from `-∞`), exponentiates and divides by the sum of the exponentials. The three results are
  `sdT j h = ∑ i, aq i j * Q i h`, `sqT i h = ∑ j, adT i j * D j h` and `cdT j h = ∑ i, aq i j * sqT i h`.
  The lengths are 32-bit words compared signed with the position, so no range is asked of them.
-/
import Idealize.ShloMosaic.PureOps.Ideal
import Idealize.ShloMosaic.Lib.ValueIdx

noncomputable section

open scoped BigOperators

namespace Cert.Coattention

open Idealize.ShloMosaic

/-- A 1024 × 1024 matrix of extended reals. -/
abbrev Mat : Type := Fin 1024 → Fin 1024 → EReal

/-- The finite stand-in for `-∞` that masked logits are set to (`-1e9` as an f32 word, never evaluated). -/
def negBig : EReal := Ideal.ofBits .f32 0xCE6E6B28#32
/-- `-∞`, the value the maxima are folded from (the f32 word of the negative infinity). -/
def negInf : EReal := Ideal.ofBits .f32 0xFF800000#32

/-- Position `k` lies before the length `n` (signed comparison of 32-bit words): the mask bit. -/
def keep (n : BitVec 32) (k : Fin 1024) : BitVec 1 := IntOp.cmpi .slt (BitVec.ofNat 32 k.val) n

/-- The affinity of query position `i` and document position `j`. -/
def aff (Q D : Mat) (i j : Fin 1024) : EReal := ∑ h : Fin 1024, Q i h * D j h

/-- The affinity masked along the query axis by the query length. -/
def mrow (Q D : Mat) (ql : BitVec 32) (i j : Fin 1024) : EReal := Scalar.select (keep ql i) (aff Q D i j) negBig
/-- The affinity masked along the document axis by the document length. -/
def mcol (Q D : Mat) (dl : BitVec 32) (i j : Fin 1024) : EReal := Scalar.select (keep dl j) (aff Q D i j) negBig

/-- The maximum of 1024 values, folded from `-∞` (and once more against `-∞`, as both programs do). -/
def top (f : Fin 1024 → EReal) : EReal := max negInf ((Finset.univ : Finset (Fin 1024)).fold max negInf f)

/-- The exponential of the query-masked affinity shifted by its column's maximum. -/
def erow (Q D : Mat) (ql : BitVec 32) (i j : Fin 1024) : EReal :=
  Ideal.exp (mrow Q D ql i j - top fun i' => mrow Q D ql i' j)
/-- The softmax over the query positions: each column of `aq` sums the query axis. -/
def aq (Q D : Mat) (ql : BitVec 32) (i j : Fin 1024) : EReal :=
  Ideal.div (erow Q D ql i j) (∑ i' : Fin 1024, erow Q D ql i' j)

/-- The exponential of the document-masked affinity shifted by its row's maximum. -/
def ecol (Q D : Mat) (dl : BitVec 32) (i j : Fin 1024) : EReal :=
  Ideal.exp (mcol Q D dl i j - top fun j' => mcol Q D dl i j')
/-- The softmax over the document positions, indexed (query, document). -/
def adT (Q D : Mat) (dl : BitVec 32) (i j : Fin 1024) : EReal :=
  Ideal.div (ecol Q D dl i j) (∑ j' : Fin 1024, ecol Q D dl i j')

/-- The query summary per document position: `∑ i, aq i j * Q i h`. -/
def sdT (Q D : Mat) (ql : BitVec 32) (j h : Fin 1024) : EReal := ∑ i : Fin 1024, aq Q D ql i j * Q i h
/-- The document summary per query position: `∑ j, adT i j * D j h`. -/
def sqT (Q D : Mat) (dl : BitVec 32) (i h : Fin 1024) : EReal := ∑ j : Fin 1024, adT Q D dl i j * D j h
/-- The co-attention context per document position: `∑ i, aq i j * sqT i h`. -/
def cdT (Q D : Mat) (ql dl : BitVec 32) (j h : Fin 1024) : EReal := ∑ i : Fin 1024, aq Q D ql i j * sqT Q D dl i h

/-! ## Over the whole batch -/

/-- A batch of 32 matrices, as the programs hold it. -/
abbrev Arr : Type := (⟨3, ![32, 1024, 1024]⟩ : Shape).Idx → EReal
/-- The 32 lengths. -/
abbrev Lens : Type := (⟨1, ![32]⟩ : Shape).Idx → BitVec 32

/-- Batch entry `b` of an array, as a matrix. -/
def slab (x : Arr) (b : Fin 32) : Mat := fun i h => x (ValueIdx.ix3 b i h)

/-- The first result array: the co-attention context of every batch entry. -/
def outCd (q d : Arr) (ql dl : Lens) : Arr :=
  fun y => cdT (slab q (y 0)) (slab d (y 0)) (ql (ValueIdx.ix1 (y 0))) (dl (ValueIdx.ix1 (y 0))) (y 1) (y 2)
/-- The second result array: the document summary of every batch entry. -/
def outSq (q d : Arr) (dl : Lens) : Arr :=
  fun y => sqT (slab q (y 0)) (slab d (y 0)) (dl (ValueIdx.ix1 (y 0))) (y 1) (y 2)
/-- The third result array: the query summary of every batch entry. -/
def outSd (q d : Arr) (ql : Lens) : Arr :=
  fun y => sdT (slab q (y 0)) (slab d (y 0)) (ql (ValueIdx.ix1 (y 0))) (y 1) (y 2)

end Cert.Coattention

end
-- ==== Proof.PayAffinity.lean ====
/-
  The affinity matrix of the kernel body, read at an index at the ideal instance: the product of the query block with
  the transposed document block, both contracted along their feature axis, accumulated into the zero matrix, is at
  `(i, j)` the inner product `∑ h, Q i h * D j h` of row `i` of the query matrix and row `j` of the document matrix.
-/
import proofs.«416498_j82798379532305_2_alg».proof.Proof.Spec
import proofs.«416498_j82798379532305_2_alg».proof.Proof.Gen.KernelIdeal.Skeleton
import Idealize.ShloMosaic.Lib.ValueLayout
import Idealize.ShloMosaic.PureOps.Ideal.Laws

noncomputable section

open scoped BigOperators

namespace Cert.Coattention.Pay

open Cert.KernelIdeal Cert.KernelIdeal.Gen Idealize.ShloMosaic Idealize.ShloMosaic.ValueIdx

/-- The one matrix of a loaded `[1, 1024, 1024]` block. -/
def blk (x : Vec Ideal S1x1024x1024 .f32) : Mat := fun i h => x (ix3 (0 : Fin 1) i h)

/-! ## The operand indices of the affinity product, axis by axis

Both operands are contracted along their axis 1; the left operand's axis 0 is the result's axis 0 and the right
operand's axis 0 is the result's axis 1. -/

theorem lhs_aff_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_aff_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_aff_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_aff_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of two `[1024, 1024]` matrices contracted along their second axes, into the zero matrix, read at
    `(i, j)`: the inner product of the left matrix's row `i` and the right matrix's row `j`. -/
theorem matmul_rows_apply (a b : FVec Ideal S1024x1024 .f32) (i j : Fin 1024) :
    matmul (F := Ideal) dot_S1024x1024_S1024x1024_S1024x1024_1_1_0_0_n_n (some .fp32) a b (constant (F := Ideal) S1024x1024 .f32 0x00000000#32) (ix2 i j)
      = ∑ k : Fin 1024, a (ix2 i k) * b (ix2 j k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 i j) ((ValueIdx.contrEquiv1 dot_S1024x1024_S1024x1024_S1024x1024_1_1_0_0_n_n 1024 rfl rfl).symm k) = ix2 i k := funext fun a => Fin.ext (by
    match a with
    | ⟨0, _⟩ => exact lhs_aff_0 _ _
    | ⟨1, _⟩ => exact (lhs_aff_1 _ _).trans hk)
  have er : dot_S1024x1024_S1024x1024_S1024x1024_1_1_0_0_n_n.rhsIdx (ix2 i j) ((ValueIdx.contrEquiv1 dot_S1024x1024_S1024x1024_S1024x1024_1_1_0_0_n_n 1024 rfl rfl).symm k) = ix2 j k := funext fun a => Fin.ext (by
    match a with
    | ⟨0, _⟩ => exact rhs_aff_0 _ _
    | ⟨1, _⟩ => exact (rhs_aff_1 _ _).trans hk)
  rw [el, er]

/-- The affinity matrix of the two loaded blocks at `(i, j)`. -/
theorem pay1_apply (x0 x1 : Vec Ideal S1x1024x1024 .f32) (i j : Fin 1024) :
    k0_pay1 (F := Ideal) x0 x1 (ix2 i j) = aff (blk x0) (blk x1) i j := by
  unfold k0_pay1
  refine (matmul_rows_apply _ _ i j).trans ?_
  unfold aff blk
  refine Finset.sum_congr rfl fun k _ => ?_
  rw [shapeCast_1ab_ab_apply, shapeCast_1ab_ab_apply]

end Cert.Coattention.Pay

end
-- ==== Proof.PaySoftmax.lean ====
/-
  The two masked softmaxes of the kernel body, read at an index at the ideal instance. The affinity matrix is masked
  along one axis by a length (positions at or beyond the length are replaced by the finite stand-in), shifted by the
  maximum over that axis (a fold of `max` from `-∞`, and once more against `-∞`), exponentiated and divided by the sum of
  the exponentials over the axis. Along the query axis (axis 0) this is `aq`, along the document axis (axis 1) `adT`.
-/
import proofs.«416498_j82798379532305_2_alg».proof.Proof.PayAffinity

noncomputable section

open scoped BigOperators

namespace Cert.Coattention.Pay

open Cert.KernelIdeal Cert.KernelIdeal.Gen Idealize.ShloMosaic Idealize.ShloMosaic.ValueIdx

/-! ## The keepdims column forms of a shape cast and a broadcast -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A `[1024, 1024]` matrix folded along one axis -/

/-- Inserting the coordinate `k` on axis 0 over the column `j` gives `(k, j)`. -/
theorem lift_axis0 (j k : Fin 1024) : reduces_S1024x1024_S1024.lift (ix1 j) k = ix2 k j :=
  funext fun a => Fin.ext (by match a with | ⟨0, _⟩ => rfl | ⟨1, _⟩ => rfl)

/-- Inserting the coordinate `k` on axis 1 over the row `i` gives `(i, k)`. -/
theorem lift_axis1 (i k : Fin 1024) : reduces_S1024x1024_S1024_2.lift (ix1 i) k = ix2 i k :=
  funext fun a => Fin.ext (by match a with | ⟨0, _⟩ => rfl | ⟨1, _⟩ => rfl)

/-- The maximum down column `j`, folded from `-∞`. -/
theorem max_axis0_apply (m : FVec Ideal S1024x1024 .f32) (j : Fin 1024) :
    multiReduction (F := Ideal) .maximumf [0] S1024 m 0xFF800000#32 reduces_S1024x1024_S1024 (.inl rfl) rfl (ix1 j)
      = (Finset.univ : Finset (Fin 1024)).fold max negInf (fun i' => m (ix2 i' j)) := by
  refine (Ideal.multiReduction_maximumf_single m 0xFF800000#32 reduces_S1024x1024_S1024 (.inl rfl) rfl (ix1 j)).trans ?_
  exact congrArg (fun f => (Finset.univ : Finset (Fin 1024)).fold max negInf f) (funext fun k => congrArg m (lift_axis0 j k))

/-- The maximum along row `i`, folded from `-∞`. -/
theorem max_axis1_apply (m : FVec Ideal S1024x1024 .f32) (i : Fin 1024) :
    multiReduction (F := Ideal) .maximumf [1] S1024 m 0xFF800000#32 reduces_S1024x1024_S1024_2 (.inl rfl) rfl (ix1 i)
      = (Finset.univ : Finset (Fin 1024)).fold max negInf (fun j' => m (ix2 i j')) := by
  refine (Ideal.multiReduction_maximumf_single m 0xFF800000#32 reduces_S1024x1024_S1024_2 (.inl rfl) rfl (ix1 i)).trans ?_
  exact congrArg (fun f => (Finset.univ : Finset (Fin 1024)).fold max negInf f) (funext fun k => congrArg m (lift_axis1 i k))

/-- The sum down column `j`. -/
theorem sum_axis0_apply (m : FVec Ideal S1024x1024 .f32) (j : Fin 1024) :
    multiReduction (F := Ideal) .add [0] S1024 m 0x00000000#32 reduces_S1024x1024_S1024 (.inl rfl) rfl (ix1 j)
      = ∑ i' : Fin 1024, m (ix2 i' j) := by
  refine (Ideal.multiReduction_add_single m 0x00000000#32 reduces_S1024x1024_S1024 (.inl rfl) rfl (ix1 j)).trans ?_
  exact Finset.sum_congr rfl fun k _ => congrArg m (lift_axis0 j k)

/-- The sum along row `i`. -/
theorem sum_axis1_apply (m : FVec Ideal S1024x1024 .f32) (i : Fin 1024) :
    multiReduction (F := Ideal) .add [1] S1024 m 0x00000000#32 reduces_S1024x1024_S1024_2 (.inl rfl) rfl (ix1 i)
      = ∑ j' : Fin 1024, m (ix2 i j') := by
  refine (Ideal.multiReduction_add_single m 0x00000000#32 reduces_S1024x1024_S1024_2 (.inl rfl) rfl (ix1 i)).trans ?_
  exact Finset.sum_congr rfl fun k _ => congrArg m (lift_axis1 i k)

/-! ## Two readings at an index -/

/-- The exponential of a vector at an index. -/
theorem exp_apply {s : Shape} {φ : FTy} (x : FVec Ideal s φ) (i : s.Idx) : exp x i = Ideal.exp (x i) := rfl

/-- The two scalar constants are the specification's `-∞` and finite stand-in. -/
theorem ofBits_negInf : Scalar.ofBits (F := Ideal) .f32 0xFF800000#32 = negInf := rfl
theorem ofBits_negBig : Scalar.ofBits (F := Ideal) .f32 0xCE6E6B28#32 = negBig := rfl

/-! ## The masks -/

/-- A matrix whose rows at or beyond the length `n` are replaced by the finite stand-in. -/
def maskRows (n : BitVec 32) (a : FVec Ideal S1024x1024 .f32) : FVec Ideal S1024x1024 .f32 :=
  select (cmpi .slt (iota .tc S1024x1024 32 [0] iota_S1024x1024_d0_w32) (broadcast S1024x1024 n)) a
    (broadcast S1024x1024 (Scalar.ofBits (F := Ideal) .f32 0xCE6E6B28#32))

/-- A matrix whose columns at or beyond the length `n` are replaced by the finite stand-in. -/
def maskCols (n : BitVec 32) (a : FVec Ideal S1024x1024 .f32) : FVec Ideal S1024x1024 .f32 :=
  select (cmpi .slt (iota .tc S1024x1024 32 [1] iota_S1024x1024_d1_w32) (broadcast S1024x1024 n)) a
    (broadcast S1024x1024 (Scalar.ofBits (F := Ideal) .f32 0xCE6E6B28#32))

theorem maskRows_apply (n : BitVec 32) (a : FVec Ideal S1024x1024 .f32) (i j : Fin 1024) :
    maskRows n a (ix2 i j) = Scalar.select (keep n i) (a (ix2 i j)) negBig := by
  unfold maskRows keep
  rw [select_apply, broadcast_apply, ofBits_negBig]
  refine congrArg (fun c => Scalar.select c (a (ix2 i j)) negBig) ?_
  exact congrArg (fun w => IntOp.cmpi .slt w n) (iota_single_apply .tc S1024x1024 32 0 iota_S1024x1024_d0_w32 (ix2 i j))

theorem maskCols_apply (n : BitVec 32) (a : FVec Ideal S1024x1024 .f32) (i j : Fin 1024) :
    maskCols n a (ix2 i j) = Scalar.select (keep n j) (a (ix2 i j)) negBig := by
  unfold maskCols keep
  rw [select_apply, broadcast_apply, ofBits_negBig]
  refine congrArg (fun c => Scalar.select c (a (ix2 i j)) negBig) ?_
  exact congrArg (fun w => IntOp.cmpi .slt w n) (iota_single_apply .tc S1024x1024 32 1 iota_S1024x1024_d1_w32 (ix2 i j))

/-! ## Shifting by the maximum and exponentiating -/

/-- A matrix shifted by its column maxima and exponentiated. -/
def expShift0 (m : FVec Ideal S1024x1024 .f32) : FVec Ideal S1024x1024 .f32 :=
  exp (subf m (broadcastTo S1024x1024 (shapeCast S1x1024
    (maximumf (broadcast S1024 (Scalar.ofBits (F := Ideal) .f32 0xFF800000#32))
      (multiReduction (F := Ideal) .maximumf [0] S1024 m 0xFF800000#32 reduces_S1024x1024_S1024 (.inl rfl) rfl))
    shapeCasts_S1024_S1x1024) broadcasts_S1x1024_S1024x1024))

/-- A matrix shifted by its row maxima and exponentiated. -/
def expShift1 (m : FVec Ideal S1024x1024 .f32) : FVec Ideal S1024x1024 .f32 :=
  exp (subf m (broadcastTo S1024x1024 (shapeCast S1024x1
    (maximumf (broadcast S1024 (Scalar.ofBits (F := Ideal) .f32 0xFF800000#32))
      (multiReduction (F := Ideal) .maximumf [1] S1024 m 0xFF800000#32 reduces_S1024x1024_S1024_2 (.inl rfl) rfl))
    shapeCasts_S1024_S1024x1) broadcasts_S1024x1_S1024x1024))

theorem expShift0_apply (m : FVec Ideal S1024x1024 .f32) (i j : Fin 1024) :
    expShift0 m (ix2 i j) = Ideal.exp (m (ix2 i j) - top fun i' => m (ix2 i' j)) := by
  unfold expShift0
  rw [exp_apply, subf_apply, broadcastTo_1b_ab_apply, shapeCast_a_1a_apply, maximumf_apply, broadcast_apply,
    max_axis0_apply, ofBits_negInf]
  unfold top
  rfl

theorem expShift1_apply (m : FVec Ideal S1024x1024 .f32) (i j : Fin 1024) :
    expShift1 m (ix2 i j) = Ideal.exp (m (ix2 i j) - top fun j' => m (ix2 i j')) := by
  unfold expShift1
  rw [exp_apply, subf_apply, broadcastTo_a1_ab_apply, shapeCast_a_a1_apply, maximumf_apply, broadcast_apply,
    max_axis1_apply, ofBits_negInf]
  unfold top
  rfl

/-! ## Dividing by the sum over the axis -/

/-- A matrix divided by its column sums, narrowed to `bf16`. -/
def normalize0 (e : FVec Ideal S1024x1024 .f32) : FVec Ideal S1024x1024 .bf16 :=
  truncf .bf16 (divf e (broadcastTo S1024x1024 (shapeCast S1x1024
    (multiReduction (F := Ideal) .add [0] S1024 e 0x00000000#32 reduces_S1024x1024_S1024 (.inl rfl) rfl)
    shapeCasts_S1024_S1x1024) broadcasts_S1x1024_S1024x1024)) bitsLt_bf16_f32

/-- A matrix divided by its row sums, narrowed to `bf16`. -/
def normalize1 (e : FVec Ideal S1024x1024 .f32) : FVec Ideal S1024x1024 .bf16 :=
  truncf .bf16 (divf e (broadcastTo S1024x1024 (shapeCast S1024x1
    (multiReduction (F := Ideal) .add [1] S1024 e 0x00000000#32 reduces_S1024x1024_S1024_2 (.inl rfl) rfl)
    shapeCasts_S1024_S1024x1) broadcasts_S1024x1_S1024x1024)) bitsLt_bf16_f32

theorem normalize0_apply (e : FVec Ideal S1024x1024 .f32) (i j : Fin 1024) :
    normalize0 e (ix2 i j) = Ideal.div (e (ix2 i j)) (∑ i' : Fin 1024, e (ix2 i' j)) := by
  unfold normalize0
  rw [truncf_apply, divf_apply, broadcastTo_1b_ab_apply, shapeCast_a_1a_apply, sum_axis0_apply]

theorem normalize1_apply (e : FVec Ideal S1024x1024 .f32) (i j : Fin 1024) :
    normalize1 e (ix2 i j) = Ideal.div (e (ix2 i j)) (∑ j' : Fin 1024, e (ix2 i j')) := by
  unfold normalize1
  rw [truncf_apply, divf_apply, broadcastTo_a1_ab_apply, shapeCast_a_a1_apply, sum_axis1_apply]

/-! ## The two softmax payloads -/

/-- The first softmax payload is the query-masked affinity, shifted, exponentiated and normalised down the columns
    (the narrowing to `bf16` is the identity on the extended reals, and so is the cast to the same shape). -/
theorem pay2_eq (v1 : BitVec 32) (x0 x1 : Vec Ideal S1x1024x1024 .f32) :
    k0_pay2 (F := Ideal) v1 x0 x1 = normalize0 (expShift0 (maskRows v1 (k0_pay1 (F := Ideal) x0 x1))) := by
  unfold k0_pay2
  exact shapeCast_self _ _

/-- The second softmax payload is the document-masked affinity, shifted, exponentiated and normalised along the rows. -/
theorem pay3_eq (v3 : BitVec 32) (x0 x1 : Vec Ideal S1x1024x1024 .f32) :
    k0_pay3 (F := Ideal) v3 x0 x1 = normalize1 (expShift1 (maskCols v3 (k0_pay1 (F := Ideal) x0 x1))) := rfl

theorem mrow_eq (v1 : BitVec 32) (x0 x1 : Vec Ideal S1x1024x1024 .f32) (i j : Fin 1024) :
    maskRows v1 (k0_pay1 (F := Ideal) x0 x1) (ix2 i j) = mrow (blk x0) (blk x1) v1 i j := by
  rw [maskRows_apply, pay1_apply]; rfl

theorem mcol_eq (v3 : BitVec 32) (x0 x1 : Vec Ideal S1x1024x1024 .f32) (i j : Fin 1024) :
    maskCols v3 (k0_pay1 (F := Ideal) x0 x1) (ix2 i j) = mcol (blk x0) (blk x1) v3 i j := by
  rw [maskCols_apply, pay1_apply]; rfl

theorem erow_eq (v1 : BitVec 32) (x0 x1 : Vec Ideal S1x1024x1024 .f32) (i j : Fin 1024) :
    expShift0 (maskRows v1 (k0_pay1 (F := Ideal) x0 x1)) (ix2 i j) = erow (blk x0) (blk x1) v1 i j := by
  rw [expShift0_apply, mrow_eq]
  unfold erow
  exact congrArg (fun f => Ideal.exp (mrow (blk x0) (blk x1) v1 i j - top f)) (funext fun i' => mrow_eq v1 x0 x1 i' j)

theorem ecol_eq (v3 : BitVec 32) (x0 x1 : Vec Ideal S1x1024x1024 .f32) (i j : Fin 1024) :
    expShift1 (maskCols v3 (k0_pay1 (F := Ideal) x0 x1)) (ix2 i j) = ecol (blk x0) (blk x1) v3 i j := by
  rw [expShift1_apply, mcol_eq]
  unfold ecol
  exact congrArg (fun f => Ideal.exp (mcol (blk x0) (blk x1) v3 i j - top f)) (funext fun j' => mcol_eq v3 x0 x1 i j')

/-- The first softmax payload at `(i, j)`: the softmax over the query positions. -/
theorem pay2_apply (v1 : BitVec 32) (x0 x1 : Vec Ideal S1x1024x1024 .f32) (i j : Fin 1024) :
    k0_pay2 (F := Ideal) v1 x0 x1 (ix2 i j) = aq (blk x0) (blk x1) v1 i j := by
  rw [pay2_eq, normalize0_apply, erow_eq]
  unfold aq
  exact congrArg (Ideal.div _) (Finset.sum_congr rfl fun i' _ => erow_eq v1 x0 x1 i' j)

/-- The second softmax payload at `(i, j)`: the softmax over the document positions. -/
theorem pay3_apply (v3 : BitVec 32) (x0 x1 : Vec Ideal S1x1024x1024 .f32) (i j : Fin 1024) :
    k0_pay3 (F := Ideal) v3 x0 x1 (ix2 i j) = adT (blk x0) (blk x1) v3 i j := by
  rw [pay3_eq, normalize1_apply, ecol_eq]
  unfold adT
  exact congrArg (Ideal.div _) (Finset.sum_congr rfl fun j' _ => ecol_eq v3 x0 x1 i j')

/-- The cast of the second softmax to its own shape is the identity. -/
theorem pay4_eq (v73 : FVec Ideal S1024x1024 .bf16) : k0_pay4 (F := Ideal) v73 = v73 := by
  unfold k0_pay4
  exact shapeCast_self _ _

end Cert.Coattention.Pay

end
-- ==== Proof.Payloads.lean ====
/-
  The kernel body's arithmetic, read at an index at the ideal instance: the affinity matrix and its two masked
  softmaxes (imported), and the three products taken with them. The document summary is the document-axis softmax times
  the document block, `∑ j, adT i j * D j h`; the query summary is the transposed query-axis softmax times the query
  block, `∑ i, aq i j * Q i h`; the context is the transposed query-axis softmax times the document summary. The
  narrowings to `bf16` are the identity on the extended reals, and the zero accumulator adds nothing.
-/
import proofs.«416498_j82798379532305_2_alg».proof.Proof.PaySoftmax

noncomputable section

open scoped BigOperators

namespace Cert.Coattention.Pay

open Cert.KernelIdeal Cert.KernelIdeal.Gen Idealize.ShloMosaic Idealize.ShloMosaic.ValueIdx

/-! ## The operand indices of the row-by-column product, axis by axis

The left operand `[1024, 1024]` is contracted along its axis 1 and the right operand `[1024, 256]` along its axis 0; the
left operand's axis 0 is the result's axis 0 and the right operand's axis 1 is the result's axis 1. -/

theorem lhs_rc_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_rc_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_rc_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_rc_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A `[1024, 1024]` matrix times a `[1024, 256]` matrix, into the zero matrix, read at `(i, h)`: row `i` of the left
    against column `h` of the right. -/
theorem matmul_rc_apply (a : FVec Ideal S1024x1024 .bf16) (b : FVec Ideal S1024x256 .bf16) (i : Fin 1024) (h : Fin 256) :
    matmul (F := Ideal) dot_S1024x1024_S1024x256_S1024x256_1_0_0_1_n_n none a b (constant (F := Ideal) S1024x256 .f32 0x00000000#32) (ix2 i h)
      = ∑ k : Fin 1024, a (ix2 i k) * b (ix2 k h) := by
  simp only [matmul]
  rw [Ideal.matmul_constant_zero_apply, ← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 i h) ((ValueIdx.contrEquiv1 dot_S1024x1024_S1024x256_S1024x256_1_0_0_1_n_n 1024 rfl rfl).symm k) = ix2 i k := funext fun a => Fin.ext (by
    match a with
    | ⟨0, _⟩ => exact lhs_rc_0 _ _
    | ⟨1, _⟩ => exact (lhs_rc_1 _ _).trans hk)
  have er : dot_S1024x1024_S1024x256_S1024x256_1_0_0_1_n_n.rhsIdx (ix2 i h) ((ValueIdx.contrEquiv1 dot_S1024x1024_S1024x256_S1024x256_1_0_0_1_n_n 1024 rfl rfl).symm k) = ix2 k h := funext fun a => Fin.ext (by
    match a with
    | ⟨0, _⟩ => exact (rhs_rc_0 _ _).trans hk
    | ⟨1, _⟩ => exact rhs_rc_1 _ _)
  rw [el, er]

/-! ## The operand indices of the column-by-column product, axis by axis

Both operands are contracted along their axis 0; the left operand's axis 1 is the result's axis 0 and the right operand's
axis 1 is the result's axis 1: the left operand enters transposed. -/

theorem lhs_cc_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
theorem lhs_cc_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
theorem rhs_cc_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem rhs_cc_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The transpose of a `[1024, 1024]` matrix times a `[1024, 256]` matrix, into the zero matrix, read at `(j, h)`: column
    `j` of the left against column `h` of the right. -/
theorem matmul_cc_apply (a : FVec Ideal S1024x1024 .bf16) (b : FVec Ideal S1024x256 .bf16) (j : Fin 1024) (h : Fin 256) :
    matmul (F := Ideal) dot_S1024x1024_S1024x256_S1024x256_0_0_1_1_n_n none a b (constant (F := Ideal) S1024x256 .f32 0x00000000#32) (ix2 j h)
      = ∑ k : Fin 1024, a (ix2 k j) * b (ix2 k h) := by
  simp only [matmul]
  rw [Ideal.matmul_constant_zero_apply, ← Equiv.sum_comp (ValueIdx.contrEquiv1 dot_S1024x1024_S1024x256_S1024x256_0_0_1_1_n_n 1024 rfl rfl).symm]
  refine Finset.sum_congr rfl fun k _ => ?_
  have hk := ValueIdx.contrEquiv1_symm_val dot_S1024x1024_S1024x256_S1024x256_0_0_1_1_n_n 1024 rfl rfl k
  have el : dot_S1024x1024_S1024x256_S1024x256_0_0_1_1_n_n.lhsIdx (ix2 j h) ((ValueIdx.contrEquiv1 dot_S1024x1024_S1024x256_S1024x256_0_0_1_1_n_n 1024 rfl rfl).symm k) = ix2 k j := funext fun a => Fin.ext (by
    match a with
    | ⟨0, _⟩ => exact (lhs_cc_0 _ _).trans hk
    | ⟨1, _⟩ => exact lhs_cc_1 _ _)
  have er : dot_S1024x1024_S1024x256_S1024x256_0_0_1_1_n_n.rhsIdx (ix2 j h) ((ValueIdx.contrEquiv1 dot_S1024x1024_S1024x256_S1024x256_0_0_1_1_n_n 1024 rfl rfl).symm k) = ix2 k h := funext fun a => Fin.ext (by
    match a with
    | ⟨0, _⟩ => exact (rhs_cc_0 _ _).trans hk
    | ⟨1, _⟩ => exact rhs_cc_1 _ _)
  rw [el, er]

/-! ## The three products -/

/-- The document-axis softmax times a column block of the document matrix. -/
theorem pay5_apply (v8 : Vec Ideal S1024x1024 .bf16) (v16 : Vec Ideal S1x1024x256 .f32) (i : Fin 1024) (h : Fin 256) :
    k0_pay5 (F := Ideal) v8 v16 (ix2 i h) = ∑ j : Fin 1024, v8 (ix2 i j) * v16 (ix3 (0 : Fin 1) j h) := by
  unfold k0_pay5
  refine (matmul_rc_apply _ _ i h).trans ?_
  refine Finset.sum_congr rfl fun k _ => ?_
  refine congrArg (v8 (ix2 i k) * ·) ?_
  exact shapeCast_1ab_ab_apply v16 _ k h

/-- The transposed query-axis softmax times the document summary. -/
theorem pay6_apply (v7 v8 : Vec Ideal S1024x1024 .bf16) (v16 : Vec Ideal S1x1024x256 .f32) (j : Fin 1024) (h : Fin 256) :
    k0_pay6 (F := Ideal) v7 v8 v16 (ix3 (0 : Fin 1) j h) = ∑ i : Fin 1024, v7 (ix2 i j) * k0_pay5 (F := Ideal) v8 v16 (ix2 i h) := by
  unfold k0_pay6
  refine (shapeCast_ab_1ab_apply _ _ (0 : Fin 1) j h).trans ?_
  exact matmul_cc_apply _ _ j h

/-- The document summary stored as a `[1, 1024, 256]` block. -/
theorem pay7_apply (v8 : Vec Ideal S1024x1024 .bf16) (v16 : Vec Ideal S1x1024x256 .f32) (i : Fin 1024) (h : Fin 256) :
    k0_pay7 (F := Ideal) v8 v16 (ix3 (0 : Fin 1) i h) = k0_pay5 (F := Ideal) v8 v16 (ix2 i h) := by
  unfold k0_pay7
  exact shapeCast_ab_1ab_apply _ _ (0 : Fin 1) i h

/-- The transposed query-axis softmax times a column block of the query matrix. -/
theorem pay8_apply (v7 : Vec Ideal S1024x1024 .bf16) (v12 : Vec Ideal S1x1024x256 .f32) (j : Fin 1024) (h : Fin 256) :
    k0_pay8 (F := Ideal) v7 v12 (ix3 (0 : Fin 1) j h) = ∑ i : Fin 1024, v7 (ix2 i j) * v12 (ix3 (0 : Fin 1) i h) := by
  unfold k0_pay8
  refine (shapeCast_ab_1ab_apply _ _ (0 : Fin 1) j h).trans ?_
  refine (matmul_cc_apply _ _ j h).trans ?_
  refine Finset.sum_congr rfl fun k _ => ?_
  refine congrArg (v7 (ix2 k j) * ·) ?_
  exact shapeCast_1ab_ab_apply v12 _ k h

end Cert.Coattention.Pay

end
-- ==== Proof.KernelValue.lean ====
/-
  The kernel's three result arrays, at the ideal instance, are the specification's whole-batch functions of the argument
  arrays. After point `t` the body's blocks are its three products over the softmax buffers of batch entry `t / 4` (the
  carried buffers, by the induction over the grid); read at an index through the body's arithmetic they are the
  specification's sums at batch entry `t / 4`, position `y₁` and feature `256 (t % 4) + y₂`; and the 128 blocks tile each
  array.
-/
import proofs.«416498_j82798379532305_2_alg».proof.Proof.Cover
import proofs.«416498_j82798379532305_2_alg».proof.Proof.Payloads

set_option maxRecDepth 16384

noncomputable section

open scoped BigOperators

namespace Cert.Coattention.Kern

open Cert.KernelIdeal Cert.KernelIdeal.Gen Idealize.ShloMosaic Idealize.ShloMosaic.TcCoe Idealize.ShloMosaic.ValueIdx
open Idealize.SL.Sem
open Cert.Coattention Cert.Coattention.Pay

variable (m : (ℓ : Loc nD τ sig) → Buf (Elt Ideal) ℓ) (ρ : Dev nD → PrngReg)

/-- A batch entry taken as a block and read as a matrix is the specification's slab. -/
theorem blk_entry (x : Vec Ideal S32x1024x1024 .f32) (b : Fin 32) : blk (entry x b) = slab x b := rfl

/-- The feature slice of a block at point `t`, read at position `j` and local feature `h`: feature `256 (t % 4) + h`. -/
theorem tileOf_apply (t : Fin grid0.N) (x : Vec Ideal S1x1024x1024 .f32) (j : Fin 1024) (h : Fin 256) :
    tileOf (grid0.coords t) x (ix3 (0 : Fin 1) j h)
      = x (ix3 (0 : Fin 1) j (⟨(256 * (t.val % 4) + h.val) % 1024, Nat.mod_lt _ (by decide)⟩ : Fin 1024)) := by
  unfold tileOf
  show x _ = x _
  congr 1
  funext a
  apply Fin.ext
  have hg := (grid_coords t).2
  have hh : h.val < 256 := h.isLt
  match a with
  | ⟨0, _⟩ =>
    show k0_off2 (grid0.coords t) 0 + 1 * 0 = 0
    rw [k0_off2_eq]; rfl
  | ⟨1, _⟩ =>
    show k0_off2 (grid0.coords t) 1 + 1 * j.val = j.val
    rw [k0_off2_eq]; show 0 + 1 * j.val = j.val; omega
  | ⟨2, _⟩ =>
    show k0_off2 (grid0.coords t) 2 + 1 * h.val = (256 * (t.val % 4) + h.val) % 1024
    rw [k0_off2_eq]; show 256 * ((grid0.coords t) 1).val + 1 * h.val = _; rw [hg]; omega

variable (hO : Ok m) (c : Dev nD)

/-- The query-axis softmax buffer of batch entry `b`, at an index. -/
theorem aqBuf_apply (b : Fin 32) (i j : Fin 1024) :
    aqBuf m c b (ix2 i j) = aq (slab (qArr m c) b) (slab (dArr m c) b) (qLens m (ix1 b)) i j := by
  unfold aqBuf
  rw [pay2_apply, blk_entry, blk_entry]

/-- The document-axis softmax buffer of batch entry `b`, at an index. -/
theorem adBuf_apply (b : Fin 32) (i j : Fin 1024) :
    adBuf m c b (ix2 i j) = adT (slab (qArr m c) b) (slab (dArr m c) b) (dLens m (ix1 b)) i j := by
  unfold adBuf
  rw [pay4_eq, pay3_apply, blk_entry, blk_entry]

/-- Every output-block index is `(0, y₁, y₂)`. -/
theorem eq_tile (y : S1x1024x256.Idx) : y = ix3 (0 : Fin 1) (⟨(y 1).val, (y 1).isLt⟩ : Fin 1024) (⟨(y 2).val, (y 2).isLt⟩ : Fin 256) := by
  funext a
  match a with
  | ⟨0, _⟩ => exact Fin.ext (by have h : (y 0).val < 1 := (y 0).isLt; show (y 0).val = 0; omega)
  | ⟨1, _⟩ => rfl
  | ⟨2, _⟩ => rfl

/-- The document summary the body forms at point `t`, at query position `i` and local feature `h`. -/
theorem sq_tile (t : Fin (cfgM m hO).N) (i : Fin 1024) (h : Fin 256) :
    k0_pay5 (F := Ideal) (adBuf m c (bOf t.val)) (tileOf (grid0.coords t) (entry (dArr m c) (bOf t.val))) (ix2 i h)
      = sqT (slab (qArr m c) (bOf t.val)) (slab (dArr m c) (bOf t.val)) (dLens m (ix1 (bOf t.val))) i
          (⟨(256 * (t.val % 4) + h.val) % 1024, Nat.mod_lt _ (by decide)⟩ : Fin 1024) := by
  rw [pay5_apply]
  unfold sqT
  refine Finset.sum_congr rfl fun j _ => ?_
  rw [adBuf_apply, tileOf_apply]
  rfl

/-- The first output block after point `t` is its block of the co-attention context. -/
theorem blockCd (t : Fin (cfgM m hO).N) (y : S1x1024x256.Idx) :
    (outsAt0 m hO c t.val t.isLt).1 y = outCd (qArr m c) (dArr m c) (qLens m) (dLens m) (tileIdx t.val y) := by
  rw [outsAt0_eq, eq_tile y]
  show k0_pay6 (F := Ideal) _ _ _ (ix3 (0 : Fin 1) _ _) = _
  rw [pay6_apply]
  show _ = cdT _ _ _ _ _ _
  unfold cdT
  refine Finset.sum_congr rfl fun i _ => ?_
  rw [aqBuf_apply, sq_tile]
  rfl

/-- The second output block after point `t` is its block of the document summary. -/
theorem blockSq (t : Fin (cfgM m hO).N) (y : S1x1024x256.Idx) :
    (outsAt0 m hO c t.val t.isLt).2.1 y = outSq (qArr m c) (dArr m c) (dLens m) (tileIdx t.val y) := by
  rw [outsAt0_eq, eq_tile y]
  show k0_pay7 (F := Ideal) _ _ (ix3 (0 : Fin 1) _ _) = _
  rw [pay7_apply, sq_tile]
  rfl

/-- The third output block after point `t` is its block of the query summary. -/
theorem blockSd (t : Fin (cfgM m hO).N) (y : S1x1024x256.Idx) :
    (outsAt0 m hO c t.val t.isLt).2.2.1 y = outSd (qArr m c) (dArr m c) (qLens m) (tileIdx t.val y) := by
  rw [outsAt0_eq, eq_tile y]
  show k0_pay8 (F := Ideal) _ _ (ix3 (0 : Fin 1) _ _) = _
  rw [pay8_apply]
  show _ = sdT _ _ _ _ _
  unfold sdT
  refine Finset.sum_congr rfl fun i _ => ?_
  rw [aqBuf_apply, tileOf_apply]
  rfl

/-- The tables of lengths the region reads are the two length arguments as launched (there is one device). -/
theorem qLens_eq : qLens m = m ((c.tc : Thread nD τ).loc main_arg2) := (V_pre m c 0).symm.trans (V_main_arg2 m c)
theorem dLens_eq : dLens m = m ((c.tc : Thread nD τ).loc main_arg3) := (V_pre m c 1).symm.trans (V_main_arg3 m c)

/-- THE KERNEL'S RUN, READ: every weakly fair execution ends with the three result arrays at the specification's
    functions of the argument arrays as launched, and the arguments unchanged. -/
theorem run : θ_run defs (onTc (τ := τ) (main (F := Ideal))) ⟨m, fun _ => 0, ρ⟩ fun r => ∀ c : Dev nD,
      r.2.mem ((c.tc : Thread nD τ).loc main_v0_0) = outCd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = outSq (m ((c.tc : Thread nD τ).loc main_arg0)) (m ((c.tc : Thread nD τ).loc main_arg1)) (m ((c.tc : Thread nD τ).loc main_arg3))
      ∧ r.2.mem ((c.tc : Thread nD τ).loc main_v0_2) = outSd (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 2).trans ((final2 m trivial c _ (blockCd m trivial c)).trans (by rw [qLens_eq m c, dLens_eq m c])),
      ((h c).1 3).trans ((final3 m trivial c _ (blockSq m trivial c)).trans (by rw [dLens_eq m c])),
      ((h c).1 4).trans ((final4 m trivial c _ (blockSd m trivial c)).trans (by rw [qLens_eq m c])),
      ((h c).1 0).trans (((dats m trivial 0 c).arrAt_in 0 rfl _).trans ((A_eq m trivial c 0).trans (V_main_arg0 m c))),
      ((h c).1 1).trans (((dats m trivial 0 c).arrAt_in 1 rfl _).trans ((A_eq m trivial c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ trivial)

end Cert.Coattention.Kern

end
-- ==== Proof.RefValue.lean ====
/-
  The reference program read at an index: its masked affinities, its two softmaxes and its three contractions are the
  functions of the specification, batch entry by batch entry.
-/
import proofs.«416498_j82798379532305_2_alg».proof.Proof.Spec
import proofs.«416498_j82798379532305_2_alg».proof.Proof.Gen.ReferenceIdeal.Read

noncomputable section

open scoped BigOperators

namespace Cert.Coattention.Ref

open Cert.ReferenceIdeal Cert.ReferenceIdeal.Gen Cert.ReferenceIdeal.Read Idealize.ShloMosaic Idealize.ShloMosaic.ValueIdx
open Cert.Coattention

/-! ## The affinity -/

/-- The left operand of the affinity's contraction at output (b, i, j) and feature k is the query entry (b, i, k). -/
theorem lidx_aff (b : Fin 32) (i j k : Fin 1024) : lidx_main_v0 (ix3 b i j) k = ix3 b i k :=
  funext fun a => Fin.ext (by match a with | ⟨0, _⟩ => rfl | ⟨1, _⟩ => rfl | ⟨2, _⟩ => rfl)
/-- The right operand there is the document entry (b, j, k). -/
theorem ridx_aff (b : Fin 32) (i j k : Fin 1024) : ridx_main_v0 (ix3 b i j) k = ix3 b j k :=
  funext fun a => Fin.ext (by match a with | ⟨0, _⟩ => rfl | ⟨1, _⟩ => rfl | ⟨2, _⟩ => rfl)

/-- The first contraction at (b, i, j) is the affinity of query position i and document position j of batch entry b. -/
theorem aff_at (x0 x1 : Arr) (b : Fin 32) (i j : Fin 1024) :
    val_main_v0 (F := Ideal) x0 x1 (ix3 b i j) = aff (slab x0 b) (slab x1 b) i j := by
  rw [val_main_v0_apply]
  unfold aff
  refine Finset.sum_congr rfl fun k _ => ?_
  rw [lidx_aff, ridx_aff]
  rfl

/-! ## The softmax over the query positions -/

/-- The length the query mask reads at (b, i, j) is entry b of the lengths. -/
theorem idx_qlen (b : Fin 32) (i j : Fin 1024) :
    idx_main_v3 (idx_main_v5 (idx_main_call0_v1 (ix3 b i j))) = ix1 b :=
  funext fun a => Fin.ext (by match a with | ⟨0, _⟩ => rfl)

/-- The query mask at (b, i, j): position i lies before the query length of entry b. -/
theorem qmask_at (x2 : Lens) (b : Fin 32) (i j : Fin 1024) :
    val_main_call0_v1 (F := Ideal) x2 (ix3 b i j) = keep (x2 (ix1 b)) i := by
  rw [val_main_call0_v1_apply, val_main_v6_apply, val_main_v4_apply, val_main_v2_apply, val_main_v1_apply,
    val_main_v5_apply, val_main_v3_apply, idx_qlen]
  rfl

/-- The affinity masked along the query axis. -/
theorem mrow_at (x0 x1 : Arr) (x2 : Lens) (b : Fin 32) (i j : Fin 1024) :
    val_main_v7 (F := Ideal) x0 x1 x2 (ix3 b i j) = mrow (slab x0 b) (slab x1 b) (x2 (ix1 b)) i j := by
  rw [val_main_v7_apply, qmask_at, aff_at, val_main_call0_v2_apply, val_main_call0_v0_apply, val_main_cst_apply]
  rfl

/-- The query axis of the batch is reducible on its own: the shape fact the inserted index is defined from. -/
theorem reduces_mid : S32x1024x1024.Reduces [1] S32x1024 := by decide

/-- Result index (b, j) with coordinate k inserted on the reduced axis is (b, k, j). -/
theorem lift_mid (b : Fin 32) (j k : Fin 1024) : reduces_mid.lift (ix2 b j) k = ix3 b k j :=
  funext fun c => Fin.ext (by match c with | ⟨0, _⟩ => rfl | ⟨1, _⟩ => rfl | ⟨2, _⟩ => rfl)

/-- A maximum over the middle axis of a batch, folded from the initial value, is the fold of `max` over the 1024
    coordinates of that axis. -/
theorem reduce_max_mid (x : S32x1024x1024.Idx → EReal) (init : S_.Idx → EReal) (b : Fin 32) (j : Fin 1024) :
    Host.reduce (FloatOps.maximumf (F := Ideal) (φ := .f32)) x init reducesTo_S32x1024x1024_S32x1024_d1 h_S_ (ix2 b j)
      = (Finset.univ : Finset (Fin 1024)).fold max (init (Shape.Idx.first h_S_)) (fun k => x (ix3 b k j)) := by
  refine (Host.reduce_eq_fold_single (FloatOps.maximumf (F := Ideal) (φ := .f32)) x init
    reducesTo_S32x1024x1024_S32x1024_d1 reduces_mid h_S_ (ix2 b j)).trans ?_
  have hf : (x ∘ reduces_mid.lift (ix2 b j)) = fun k : Fin 1024 => x (ix3 b k j) :=
    funext fun k => congrArg x (lift_mid b j k)
  rw [hf]
  rfl

/-- The column maximum of the query-masked affinity, before it is taken against the initial value once more. -/
theorem colmax_at (x0 x1 : Arr) (x2 : Lens) (b : Fin 32) (j : Fin 1024) :
    val_main_v8 (F := Ideal) x0 x1 x2 (ix2 b j)
      = (Finset.univ : Finset (Fin 1024)).fold max negInf (fun i' => mrow (slab x0 b) (slab x1 b) (x2 (ix1 b)) i' j) := by
  unfold val_main_v8
  rw [reduce_max_mid, val_main_cst_0_apply]
  have hf : (fun k : Fin 1024 => val_main_v7 (F := Ideal) x0 x1 x2 (ix3 b k j))
      = fun i' => mrow (slab x0 b) (slab x1 b) (x2 (ix1 b)) i' j := funext fun k => mrow_at x0 x1 x2 b k j
  rw [hf]
  rfl

/-- The shift of column j: the maximum of the query-masked affinity over the query positions. -/
theorem rowtop_at (x0 x1 : Arr) (x2 : Lens) (b : Fin 32) (j : Fin 1024) :
    val_main_v10 (F := Ideal) x0 x1 x2 (ix2 b j)
      = top (fun i' => mrow (slab x0 b) (slab x1 b) (x2 (ix1 b)) i' j) := by
  rw [val_main_v10_apply, colmax_at, val_main_v9_apply, val_main_cst_1_apply]
  rfl

/-- The shift broadcast back over the query axis reads column j's maximum at every query position. -/
theorem idx_rowtop (b : Fin 32) (i j : Fin 1024) : idx_main_v11 (idx_main_v12 (ix3 b i j)) = ix2 b j :=
  funext fun a => Fin.ext (by match a with | ⟨0, _⟩ => rfl | ⟨1, _⟩ => rfl)

/-- The exponential of the query-masked affinity shifted by its column's maximum. -/
theorem erow_at (x0 x1 : Arr) (x2 : Lens) (b : Fin 32) (i j : Fin 1024) :
    val_main_v14 (F := Ideal) x0 x1 x2 (ix3 b i j) = erow (slab x0 b) (slab x1 b) (x2 (ix1 b)) i j := by
  rw [val_main_v14_apply, val_main_v13_apply, mrow_at, val_main_v12_apply, val_main_v11_apply, idx_rowtop, rowtop_at]
  rfl

/-- The summand of column j's normaliser at query position k. -/
theorem idx_rowsum (b : Fin 32) (j k : Fin 1024) : idx_main_v15 (ix2 b j) k = ix3 b k j :=
  funext fun a => Fin.ext (by match a with | ⟨0, _⟩ => rfl | ⟨1, _⟩ => rfl | ⟨2, _⟩ => rfl)

/-- Column j's normaliser: the sum of the exponentials over the query positions (the sum starts from zero). -/
theorem rowsum_at (x0 x1 : Arr) (x2 : Lens) (b : Fin 32) (j : Fin 1024) :
    val_main_v15 (F := Ideal) x0 x1 x2 (ix2 b j)
      = ∑ i' : Fin 1024, erow (slab x0 b) (slab x1 b) (x2 (ix1 b)) i' j := by
  rw [val_main_v15_apply, val_main_cst_2_apply, Ideal.ofBits_def, Ideal.ofBits_zero_f32, zero_add]
  refine Finset.sum_congr rfl fun k _ => ?_
  rw [idx_rowsum, erow_at]

/-- The normaliser broadcast back over the query axis reads column j's sum at every query position. -/
theorem idx_rowsum_bcast (b : Fin 32) (i j : Fin 1024) : idx_main_v16 (idx_main_v17 (ix3 b i j)) = ix2 b j :=
  funext fun a => Fin.ext (by match a with | ⟨0, _⟩ => rfl | ⟨1, _⟩ => rfl)

/-- The softmax over the query positions. -/
theorem aq_at (x0 x1 : Arr) (x2 : Lens) (b : Fin 32) (i j : Fin 1024) :
    val_main_v18 (F := Ideal) x0 x1 x2 (ix3 b i j) = aq (slab x0 b) (slab x1 b) (x2 (ix1 b)) i j := by
  rw [val_main_v18_apply, erow_at, val_main_v17_apply, val_main_v16_apply, idx_rowsum_bcast, rowsum_at]
  rfl

/-! ## The softmax over the document positions, on the transposed affinity -/

/-- The transposed affinity at (b, j, i) reads the affinity at (b, i, j). -/
theorem idx_affT (b : Fin 32) (i j : Fin 1024) : idx_main_v19 (ix3 b j i) = ix3 b i j :=
  funext fun a => Fin.ext (by match a with | ⟨0, _⟩ => rfl | ⟨1, _⟩ => rfl | ⟨2, _⟩ => rfl)

/-- The transposed affinity at (b, j, i) is the affinity of query position i and document position j. -/
theorem affT_at (x0 x1 : Arr) (b : Fin 32) (i j : Fin 1024) :
    val_main_v19 (F := Ideal) x0 x1 (ix3 b j i) = aff (slab x0 b) (slab x1 b) i j := by
  rw [val_main_v19_apply, idx_affT, aff_at]

/-- The length the document mask reads at (b, j, i) is entry b of the lengths. -/
theorem idx_dlen (b : Fin 32) (i j : Fin 1024) :
    idx_main_v22 (idx_main_v24 (idx_main_call1_v1 (ix3 b j i))) = ix1 b :=
  funext fun a => Fin.ext (by match a with | ⟨0, _⟩ => rfl)

/-- The document mask at (b, j, i): position j lies before the document length of entry b. -/
theorem dmask_at (x3 : Lens) (b : Fin 32) (i j : Fin 1024) :
    val_main_call1_v1 (F := Ideal) x3 (ix3 b j i) = keep (x3 (ix1 b)) j := by
  rw [val_main_call1_v1_apply, val_main_v25_apply, val_main_v23_apply, val_main_v21_apply, val_main_v20_apply,
    val_main_v24_apply, val_main_v22_apply, idx_dlen]
  rfl

/-- The affinity masked along the document axis, held transposed. -/
theorem mcol_at (x0 x1 : Arr) (x3 : Lens) (b : Fin 32) (i j : Fin 1024) :
    val_main_v26 (F := Ideal) x0 x1 x3 (ix3 b j i) = mcol (slab x0 b) (slab x1 b) (x3 (ix1 b)) i j := by
  rw [val_main_v26_apply, dmask_at, affT_at, val_main_call1_v2_apply, val_main_call1_v0_apply, val_main_cst_3_apply]
  rfl

/-- The row maximum of the document-masked affinity, before it is taken against the initial value once more. -/
theorem rowmax_at (x0 x1 : Arr) (x3 : Lens) (b : Fin 32) (i : Fin 1024) :
    val_main_v27 (F := Ideal) x0 x1 x3 (ix2 b i)
      = (Finset.univ : Finset (Fin 1024)).fold max negInf (fun j' => mcol (slab x0 b) (slab x1 b) (x3 (ix1 b)) i j') := by
  unfold val_main_v27
  rw [reduce_max_mid, val_main_cst_4_apply]
  have hf : (fun k : Fin 1024 => val_main_v26 (F := Ideal) x0 x1 x3 (ix3 b k i))
      = fun j' => mcol (slab x0 b) (slab x1 b) (x3 (ix1 b)) i j' := funext fun k => mcol_at x0 x1 x3 b i k
  rw [hf]
  rfl

/-- The shift of row i: the maximum of the document-masked affinity over the document positions. -/
theorem coltop_at (x0 x1 : Arr) (x3 : Lens) (b : Fin 32) (i : Fin 1024) :
    val_main_v29 (F := Ideal) x0 x1 x3 (ix2 b i)
      = top (fun j' => mcol (slab x0 b) (slab x1 b) (x3 (ix1 b)) i j') := by
  rw [val_main_v29_apply, rowmax_at, val_main_v28_apply, val_main_cst_5_apply]
  rfl

/-- The shift broadcast back over the document axis reads row i's maximum at every document position. -/
theorem idx_coltop (b : Fin 32) (i j : Fin 1024) : idx_main_v30 (idx_main_v31 (ix3 b j i)) = ix2 b i :=
  funext fun a => Fin.ext (by match a with | ⟨0, _⟩ => rfl | ⟨1, _⟩ => rfl)

/-- The exponential of the document-masked affinity shifted by its row's maximum, held transposed. -/
theorem ecol_at (x0 x1 : Arr) (x3 : Lens) (b : Fin 32) (i j : Fin 1024) :
    val_main_v33 (F := Ideal) x0 x1 x3 (ix3 b j i) = ecol (slab x0 b) (slab x1 b) (x3 (ix1 b)) i j := by
  rw [val_main_v33_apply, val_main_v32_apply, mcol_at, val_main_v31_apply, val_main_v30_apply, idx_coltop, coltop_at]
  rfl

/-- The summand of row i's normaliser at document position k. -/
theorem idx_colsum (b : Fin 32) (i k : Fin 1024) : idx_main_v34 (ix2 b i) k = ix3 b k i :=
  funext fun a => Fin.ext (by match a with | ⟨0, _⟩ => rfl | ⟨1, _⟩ => rfl | ⟨2, _⟩ => rfl)

/-- Row i's normaliser: the sum of the exponentials over the document positions (the sum starts from zero). -/
theorem colsum_at (x0 x1 : Arr) (x3 : Lens) (b : Fin 32) (i : Fin 1024) :
    val_main_v34 (F := Ideal) x0 x1 x3 (ix2 b i)
      = ∑ j' : Fin 1024, ecol (slab x0 b) (slab x1 b) (x3 (ix1 b)) i j' := by
  rw [val_main_v34_apply, val_main_cst_6_apply, Ideal.ofBits_def, Ideal.ofBits_zero_f32, zero_add]
  refine Finset.sum_congr rfl fun k _ => ?_
  rw [idx_colsum, ecol_at]

/-- The normaliser broadcast back over the document axis reads row i's sum at every document position. -/
theorem idx_colsum_bcast (b : Fin 32) (i j : Fin 1024) : idx_main_v35 (idx_main_v36 (ix3 b j i)) = ix2 b i :=
  funext fun a => Fin.ext (by match a with | ⟨0, _⟩ => rfl | ⟨1, _⟩ => rfl)

/-- The softmax over the document positions, held transposed: at (b, j, i) it is `adT` at (i, j). -/
theorem adT_at (x0 x1 : Arr) (x3 : Lens) (b : Fin 32) (i j : Fin 1024) :
    val_main_v37 (F := Ideal) x0 x1 x3 (ix3 b j i) = adT (slab x0 b) (slab x1 b) (x3 (ix1 b)) i j := by
  rw [val_main_v37_apply, ecol_at, val_main_v36_apply, val_main_v35_apply, idx_colsum_bcast, colsum_at]
  rfl

/-! ## The three contractions and the results -/

/-- The query summary's left operand at output (b, h, j) and query position k is the query entry (b, k, h). -/
theorem lidx_sd (b : Fin 32) (h j k : Fin 1024) : lidx_main_v38 (ix3 b h j) k = ix3 b k h :=
  funext fun a => Fin.ext (by match a with | ⟨0, _⟩ => rfl | ⟨1, _⟩ => rfl | ⟨2, _⟩ => rfl)
/-- Its right operand there is the query softmax at (b, k, j). -/
theorem ridx_sd (b : Fin 32) (h j k : Fin 1024) : ridx_main_v38 (ix3 b h j) k = ix3 b k j :=
  funext fun a => Fin.ext (by match a with | ⟨0, _⟩ => rfl | ⟨1, _⟩ => rfl | ⟨2, _⟩ => rfl)

/-- The query summary, held (feature, document position): the program multiplies array by softmax. -/
theorem sd_at (x0 x1 : Arr) (x2 : Lens) (b : Fin 32) (h j : Fin 1024) :
    val_main_v38 (F := Ideal) x0 x1 x2 (ix3 b h j) = sdT (slab x0 b) (slab x1 b) (x2 (ix1 b)) j h := by
  rw [val_main_v38_apply]
  unfold sdT
  refine Finset.sum_congr rfl fun k _ => ?_
  rw [lidx_sd, ridx_sd, aq_at]
  exact mul_comm _ _

/-- The document summary's left operand at output (b, h, i) and document position k is the document entry (b, k, h). -/
theorem lidx_sq (b : Fin 32) (h i k : Fin 1024) : lidx_main_v39 (ix3 b h i) k = ix3 b k h :=
  funext fun a => Fin.ext (by match a with | ⟨0, _⟩ => rfl | ⟨1, _⟩ => rfl | ⟨2, _⟩ => rfl)
/-- Its right operand there is the transposed document softmax at (b, k, i). -/
theorem ridx_sq (b : Fin 32) (h i k : Fin 1024) : ridx_main_v39 (ix3 b h i) k = ix3 b k i :=
  funext fun a => Fin.ext (by match a with | ⟨0, _⟩ => rfl | ⟨1, _⟩ => rfl | ⟨2, _⟩ => rfl)

/-- The document summary, held (feature, query position). -/
theorem sq_at (x0 x1 : Arr) (x3 : Lens) (b : Fin 32) (h i : Fin 1024) :
    val_main_v39 (F := Ideal) x0 x1 x3 (ix3 b h i) = sqT (slab x0 b) (slab x1 b) (x3 (ix1 b)) i h := by
  rw [val_main_v39_apply]
  unfold sqT
  refine Finset.sum_congr rfl fun k _ => ?_
  rw [lidx_sq, ridx_sq, adT_at]
  exact mul_comm _ _

/-- The context's left operand at output (b, h, j) and query position k is the document summary at (b, h, k). -/
theorem lidx_cd (b : Fin 32) (h j k : Fin 1024) : lidx_main_v40 (ix3 b h j) k = ix3 b h k :=
  funext fun a => Fin.ext (by match a with | ⟨0, _⟩ => rfl | ⟨1, _⟩ => rfl | ⟨2, _⟩ => rfl)
/-- Its right operand there is the query softmax at (b, k, j). -/
theorem ridx_cd (b : Fin 32) (h j k : Fin 1024) : ridx_main_v40 (ix3 b h j) k = ix3 b k j :=
  funext fun a => Fin.ext (by match a with | ⟨0, _⟩ => rfl | ⟨1, _⟩ => rfl | ⟨2, _⟩ => rfl)

/-- The co-attention context, held (feature, document position). -/
theorem cd_at (x0 x1 : Arr) (x2 x3 : Lens) (b : Fin 32) (h j : Fin 1024) :
    val_main_v40 (F := Ideal) x0 x1 x2 x3 (ix3 b h j)
      = cdT (slab x0 b) (slab x1 b) (x2 (ix1 b)) (x3 (ix1 b)) j h := by
  rw [val_main_v40_apply]
  unfold cdT
  refine Finset.sum_congr rfl fun k _ => ?_
  rw [lidx_cd, ridx_cd, sq_at, aq_at]
  exact mul_comm _ _

/-- The final transposes exchange the last two coordinates. -/
theorem idx_outT (b : Fin 32) (j h : Fin 1024) : idx_main_v41 (ix3 b j h) = ix3 b h j :=
  funext fun a => Fin.ext (by match a with | ⟨0, _⟩ => rfl | ⟨1, _⟩ => rfl | ⟨2, _⟩ => rfl)

/-- The first result of the reference is the co-attention context of every batch entry. -/
theorem ref_cd (x0 x1 : Arr) (x2 x3 : Lens) :
    Cert.ReferenceIdeal.Read.val_main_v41 (F := Ideal) x0 x1 x2 x3 = outCd x0 x1 x2 x3 := by
  funext y
  obtain ⟨b, j, h, rfl⟩ : ∃ (b : Fin 32) (j h : Fin 1024), y = ix3 b j h := ⟨y 0, y 1, y 2, eq_ix3 y⟩
  rw [val_main_v41_apply, idx_outT, cd_at]
  rfl

/-- The second result of the reference is the document summary of every batch entry. -/
theorem ref_sq (x0 x1 : Arr) (x3 : Lens) :
    Cert.ReferenceIdeal.Read.val_main_v42 (F := Ideal) x0 x1 x3 = outSq x0 x1 x3 := by
  funext y
  obtain ⟨b, i, h, rfl⟩ : ∃ (b : Fin 32) (i h : Fin 1024), y = ix3 b i h := ⟨y 0, y 1, y 2, eq_ix3 y⟩
  rw [val_main_v42_apply, show idx_main_v42 (ix3 b i h) = ix3 b h i from idx_outT b i h, sq_at]
  rfl

/-- The third result of the reference is the query summary of every batch entry. -/
theorem ref_sd (x0 x1 : Arr) (x2 : Lens) :
    Cert.ReferenceIdeal.Read.val_main_v43 (F := Ideal) x0 x1 x2 = outSd x0 x1 x2 := by
  funext y
  obtain ⟨b, j, h, rfl⟩ : ∃ (b : Fin 32) (j h : Fin 1024), y = ix3 b j h := ⟨y 0, y 1, y 2, eq_ix3 y⟩
  rw [val_main_v43_apply, show idx_main_v43 (ix3 b j h) = ix3 b h j from idx_outT b j h, sd_at]
  rfl

end Cert.Coattention.Ref

end
-- ==== Proof.lean ====
/-
  Masked bidirectional co-attention: the kernel against its reference, over the extended reals.

  Per batch entry both programs form the affinity matrix of the query and document blocks, its softmax down the query
  axis (query positions beyond the query length set to -1e9) and along the document axis (document positions beyond the
  document length set likewise), and three contractions with them: the query summary, the document summary and the
  context. The kernel computes the two softmaxes once per batch entry, at the first of the entry's four feature tiles,
  keeps them in two buffers across the entry's remaining tiles, and writes each result 256 features at a time; the
  reference computes whole arrays. Read at an index both are the same sums of the same products — only the order of
  the two factors of a product differs, and multiplication of extended reals commutes —, so no finiteness of the inputs
  is used and the lengths may be any words. The kernel's block index maps do not read the lengths, so the side condition
  its frame asks of them is trivially true; the kernel and its idealization are the same text, so nothing is owed between them.
-/
import proofs.«416498_j82798379532305_2_alg».proof.Defs
import proofs.«416498_j82798379532305_2_alg».proof.Proof.Gen.Kernel
import proofs.«416498_j82798379532305_2_alg».proof.Proof.Gen.Kernel.Skeleton
import proofs.«416498_j82798379532305_2_alg».proof.Proof.Gen.Kernel.Launch
import proofs.«416498_j82798379532305_2_alg».proof.Proof.Gen.Kernel.Points
import proofs.«416498_j82798379532305_2_alg».proof.Proof.Gen.Kernel.Frame
import proofs.«416498_j82798379532305_2_alg».proof.Proof.Gen.KernelIdeal
import proofs.«416498_j82798379532305_2_alg».proof.Proof.Gen.KernelIdeal.Skeleton
import proofs.«416498_j82798379532305_2_alg».proof.Proof.Gen.KernelIdeal.Launch
import proofs.«416498_j82798379532305_2_alg».proof.Proof.Gen.KernelIdeal.Points
import proofs.«416498_j82798379532305_2_alg».proof.Proof.Gen.KernelIdeal.Frame
import proofs.«416498_j82798379532305_2_alg».proof.Proof.Gen.ReferenceIdeal
import proofs.«416498_j82798379532305_2_alg».proof.Proof.Gen.Pre_finite_inputs
import proofs.«416498_j82798379532305_2_alg».proof.Proof.Gen.ReferenceIdeal.Run
import proofs.«416498_j82798379532305_2_alg».proof.Proof.Gen.ReferenceIdeal.Read
import proofs.«416498_j82798379532305_2_alg».proof.Proof.KernelValue
import proofs.«416498_j82798379532305_2_alg».proof.Proof.RefValue
import Idealize.ShloMosaic.Adequacy
import Idealize.ShloMosaic.Init

noncomputable section

namespace Cert.Proof

open Idealize.ShloMosaic Idealize.SL.Sem

/-- The word-level kernel runs and keeps its arguments: its frame under the (trivially true) side condition of the
    prefetched lengths. -/
theorem frame_k : Cert.frame_Kernel (hKernel := Cert.Kernel.Gen.facts) (hPre_finite_inputs := Cert.Pre_finite_inputs.Gen.facts) :=
  fun m ρ _ => Cert.Kernel.Gen.frame m ρ trivial

/-- The idealized kernel likewise. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ trivial

/-- The reference runs and keeps its arguments: its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both idealized programs end with the specification's three arrays of the same arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, Cert.Coattention.Kern.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v41_eq, Cert.Coattention.Ref.ref_cd, (hagree c).1, (hagree c).2.1, (hagree c).2.2.1, (hagree c).2.2.2]
  · rw [Cert.ReferenceIdeal.Read.val_main_v42_eq, Cert.Coattention.Ref.ref_sq, (hagree c).1, (hagree c).2.1, (hagree c).2.2.2]
  · rw [Cert.ReferenceIdeal.Read.val_main_v43_eq, Cert.Coattention.Ref.ref_sd, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
